-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x256x128 : Shape := ⟨3, ![128, 256, 128]⟩
abbrev S128x256 : Shape := ⟨2, ![128, 256]⟩
abbrev S256x8x128 : Shape := ⟨3, ![256, 8, 128]⟩
abbrev S_ : Shape := ⟨0, ![]⟩

class Facts : Prop where
  bcast_S_S128x256x128 : S_.BroadcastsInDim S128x256x128 (![] : Fin 0 → Fin S128x256x128.rank)
  reducesTo_S128x256x128_S_d0_1_2 : S128x256x128.ReducesTo [0, 1, 2] S_
  h_S_ : 0 < S_.numel
  bcast_S_S256x8x128 : S_.BroadcastsInDim S256x8x128 (![] : Fin 0 → Fin S256x8x128.rank)
  reducesTo_S256x8x128_S_d0_1_2 : S256x8x128.ReducesTo [0, 1, 2] S_

variable [Facts]

def fn {F : FTy → Type} [FloatOps F] (main_arg0 : FVec F S128x256x128 .f32) (main_arg1 : IVec S128x256 32) (main_arg2 : FVec F S256x8x128 .f32) : IVec S_ 1 :=
  let main_v0 : FVec F S128x256x128 .f32 := Host.absf main_arg0
  let main_cst : FVec F S_ .f32 := constant S_ .f32 0x7F800000#32
  let main_v1 : FVec F S128x256x128 .f32 := broadcastInDim S128x256x128 ![] bcast_S_S128x256x128 main_cst
  let main_v2 : IVec S128x256x128 1 := cmpf .olt main_v0 main_v1
  let main_c : IVec S_ 1 := constantI S_ 1 1#1
  let main_v3 : IVec S_ 1 := (fun x v => Host.reduce IntOp.andi x v reducesTo_S128x256x128_S_d0_1_2 h_S_) main_v2 main_c
  let main_v4 : FVec F S256x8x128 .f32 := Host.absf main_arg2
  let main_cst_0 : FVec F S_ .f32 := constant S_ .f32 0x7F800000#32
  let main_v5 : FVec F S256x8x128 .f32 := broadcastInDim S256x8x128 ![] bcast_S_S256x8x128 main_cst_0
  let main_v6 : IVec S256x8x128 1 := cmpf .olt main_v4 main_v5
  let main_c_1 : IVec S_ 1 := constantI S_ 1 1#1
  let main_v7 : IVec S_ 1 := (fun x v => Host.reduce IntOp.andi x v reducesTo_S256x8x128_S_d0_1_2 h_S_) main_v6 main_c_1
  let main_v8 : IVec S_ 1 := andi main_v3 main_v7
  main_v8
-- ==== Kernel.lean ====
abbrev S128x256x128 : Shape := ⟨3, ![128, 256, 128]⟩
abbrev S128x256 : Shape := ⟨2, ![128, 256]⟩
abbrev S256x8x128 : Shape := ⟨3, ![256, 8, 128]⟩
abbrev S8x128x256 : Shape := ⟨3, ![8, 128, 256]⟩
abbrev S8x128 : Shape := ⟨2, ![8, 128]⟩
abbrev S16x256x128 : Shape := ⟨3, ![16, 256, 128]⟩
abbrev S16x256 : Shape := ⟨2, ![16, 256]⟩
abbrev S8x1 : Shape := ⟨2, ![8, 1]⟩
abbrev S256x256 : Shape := ⟨2, ![256, 256]⟩
abbrev S1x256x128 : Shape := ⟨3, ![1, 256, 128]⟩
abbrev S256x128 : Shape := ⟨2, ![256, 128]⟩
abbrev S1x128x256 : Shape := ⟨3, ![1, 128, 256]⟩
abbrev S256 : Shape := ⟨1, ![256]⟩
abbrev S1x256 : Shape := ⟨2, ![1, 256]⟩
abbrev S8x256 : Shape := ⟨2, ![8, 256]⟩
abbrev S8 : Shape := ⟨1, ![8]⟩
abbrev S1x1 : Shape := ⟨2, ![1, 1]⟩
abbrev S_ : Shape := ⟨0, ![]⟩

abbrev nBuf : Space → Nat
  | .hbm => 9
  | .vmem => 8
  | .smem => 0
  | _ => 0

abbrev bufTy : (tb : Table) → Fin (tcTables nBuf tb) → BufTy
  | .hbm, ⟨0, _⟩ => ⟨S128x256x128, .f32⟩
  | .hbm, ⟨1, _⟩ => ⟨S128x256, .i32⟩
  | .hbm, ⟨2, _⟩ => ⟨S256x8x128, .f32⟩
  | .hbm, ⟨3, _⟩ => ⟨S128x256x128, .bf16⟩
  | .hbm, ⟨4, _⟩ => ⟨S8x128x256, .f32⟩
  | .hbm, ⟨5, _⟩ => ⟨S8x128x256, .bf16⟩
  | .hbm, ⟨6, _⟩ => ⟨S8x128, .f32⟩
  | .hbm, ⟨7, _⟩ => ⟨S1x1, .f32⟩
  | .hbm, ⟨8, _⟩ => ⟨S_, .f32⟩
  | .local _ .vmem, ⟨0, _⟩ => ⟨S16x256x128, .bf16⟩
  | .local _ .vmem, ⟨1, _⟩ => ⟨S16x256x128, .bf16⟩
  | .local _ .vmem, ⟨2, _⟩ => ⟨S8x128x256, .bf16⟩
  | .local _ .vmem, ⟨3, _⟩ => ⟨S16x256, .i32⟩
  | .local _ .vmem, ⟨4, _⟩ => ⟨S16x256, .i32⟩
  | .local _ .vmem, ⟨5, _⟩ => ⟨S8x128, .f32⟩
  | .local _ .vmem, ⟨6, _⟩ => ⟨S8x1, .f32⟩
  | .local _ .vmem, ⟨7, _⟩ => ⟨S8x1, .f32⟩
  | _, _ => ⟨S128x256x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c16_i32 : BitVec 32 := 16#32
  let v8 : BitVec 32 := Scalar.addi c0_i32_1 c16_i32
  let c1_i32 : BitVec 32 := 1#32
  ⟨c0_i32_1, v8, c1_i32⟩
def k0_off1 (k0_t1 : Fin k0_t1_loop.trips) : Fin 3 → Nat :=
  let c0_i32_5 : BitVec 32 := 0#32
  let c0_i32_1 : BitVec 32 := 0#32
  let c1_i32 : BitVec 32 := 1#32
  let arg7 : BitVec 32 := Scf.iv c0_i32_1 c1_i32 k0_t1
  let c1_i32_4 : BitVec 32 := 1#32
  let v12 : BitVec 32 := Scalar.muli arg7 c1_i32_4
  let v13 : BitVec 32 := Scalar.addi c0_i32_5 v12
  let v14 : Index := Scalar.indexCast v13
  let c0 : Index := 0#32
  let c0_6 : Index := 0#32
  ![v14.toNat, 0, 0]
def k0_off2 (k0_t1 : Fin k0_t1_loop.trips) : Fin 2 → Nat :=
  let c0_i32_5 : BitVec 32 := 0#32
  let c0_i32_1 : BitVec 32 := 0#32
  let c1_i32 : BitVec 32 := 1#32
  let arg7 : BitVec 32 := Scf.iv c0_i32_1 c1_i32 k0_t1
  let c1_i32_4 : BitVec 32 := 1#32
  let v12 : BitVec 32 := Scalar.muli arg7 c1_i32_4
  let v13 : BitVec 32 := Scalar.addi c0_i32_5 v12
  let v106 : Index := Scalar.indexCast v13
  let c0_47 : Index := 0#32
  ![v106.toNat, 0]
def k0_cond2 (i : grid0.Coords) : BitVec 1 :=
  let arg0 : BitVec 32 := BitVec.ofNat 32 (i 0).val
  let c7_i32 : BitVec 32 := 7#32
  let v9 : BitVec 1 := Scalar.cmpi .eq arg0 c7_i32
  let v10 : BitVec 32 := Scalar.extui v9
  let c0_i32_3 : BitVec 32 := 0#32
  let v11 : BitVec 1 := Scalar.cmpi .ne v10 c0_i32_3
  v11

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S16x256 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

class Facts₀ : Prop where
  bitsLt_bf16_f32 : FTy.bits .bf16 < FTy.bits .f32
  transposes_S256x8x128_S8x128x256_1_2_0 : S256x8x128.Transposes [1, 2, 0] S8x128x256
  inb_S8x1_S8x1_0_0 : ∀ a, (![0, 0] : Fin 2 → Nat) a + S8x1.size a ≤ S8x1.size a
  h_S8x1 : 0 < S8x1.numel
  shapeCasts_S8x1_S8x1 : S8x1.ShapeCasts S8x1
  iota_S256x256_d0_w32 : S256x256.Iotas .tc 32 [0]
  iota_S256x256_d1_w32 : S256x256.Iotas .tc 32 [1]
  natLt_1_32 : 1 < 32
  h_S1x256x128 : 0 < S1x256x128.numel
  shapeCasts_S1x256x128_S256x128 : S1x256x128.ShapeCasts S256x128
  inb_S8x128x256_S1x128x256_0_0_0 : ∀ a, (![0, 0, 0] : Fin 3 → Nat) a + S1x128x256.size a ≤ S8x128x256.size a
  h_S1x128x256 : 0 < S1x128x256.numel
  shapeCasts_S1x128x256_S128x256 : S1x128x256.ShapeCasts S128x256
  inb_S8x128x256_S1x128x256_1_0_0 : ∀ a, (![1, 0, 0] : Fin 3 → Nat) a + S1x128x256.size a ≤ S8x128x256.size a
  inb_S8x128x256_S1x128x256_2_0_0 : ∀ a, (![2, 0, 0] : Fin 3 → Nat) a + S1x128x256.size a ≤ S8x128x256.size a
  inb_S8x128x256_S1x128x256_3_0_0 : ∀ a, (![3, 0, 0] : Fin 3 → Nat) a + S1x128x256.size a ≤ S8x128x256.size a
  inb_S8x128x256_S1x128x256_4_0_0 : ∀ a, (![4, 0, 0] : Fin 3 → Nat) a + S1x128x256.size a ≤ S8x128x256.size a
  inb_S8x128x256_S1x128x256_5_0_0 : ∀ a, (![5, 0, 0] : Fin 3 → Nat) a + S1x128x256.size a ≤ S8x128x256.size a
  inb_S8x128x256_S1x128x256_6_0_0 : ∀ a, (![6, 0, 0] : Fin 3 → Nat) a + S1x128x256.size a ≤ S8x128x256.size a
  inb_S8x128x256_S1x128x256_7_0_0 : ∀ a, (![7, 0, 0] : Fin 3 → Nat) a + S1x128x256.size a ≤ S8x128x256.size a
  reduces_S256x256_S256 : S256x256.Reduces [1] S256
  h_S1x256 : 0 < S1x256.numel
  shapeCasts_S1x256_S256 : S1x256.ShapeCasts S256
  shapeCasts_S256_S1x256 : S256.ShapeCasts S1x256
  shapeCasts_S1x256_S1x256 : S1x256.ShapeCasts S1x256
  broadcasts_S1x256_S8x256 : S1x256.Broadcasts S8x256
  reduces_S8x256_S8 : S8x256.Reduces [1] S8
  shapeCasts_S8_S8x1 : S8.ShapeCasts S8x1
  broadcasts_S8x1_S8x128 : S8x1.Broadcasts S8x128
  inb_S8x128_S8x128_0_0 : ∀ a, (![0, 0] : Fin 2 → Nat) a + S8x128.size a ≤ S8x128.size a
  h_S8x128 : 0 < S8x128.numel
  slices_S8x128_S1x1_0_0 : S8x128.Slices ![0, 0] S1x1
  shapeCasts_S1x1_S_ : S1x1.ShapeCasts S_
  dot_S256x128_S128x256_S256x256_1_0_0_1_n_n_wf : DotDims.WF S256x128 S128x256 S256x256 [1] [0] [0] [1] [] []
  hrank0 : 0 < grid0.rank
  k0_t1_ok : k0_t1_loop.OK
  k0_off1_inb : ∀ k0_t1 : Fin k0_t1_loop.trips, ∀ a, (k0_off1 k0_t1) a + S1x256x128.size a ≤ S16x256x128.size a
  k0_off2_inb : ∀ k0_t1 : Fin k0_t1_loop.trips, ∀ a, (k0_off2 k0_t1) a + S1x256.size a ≤ S16x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x256x128.size a ≤ S128x256x128.size a
  hwx0_0 : ∀ i : grid0.Coords, EltTy.bits .bf16 = 32 ∨ (Rect.block (s := S128x256x128) S16x256x128.size (cc0_transform_0 i) (hinb0_0 i)).WholeWords (EltTy.packing .bf16)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S8x128x256.size a ≤ S8x128x256.size a
  hwx0_1 : ∀ i : grid0.Coords, EltTy.bits .bf16 = 32 ∨ (Rect.block (s := S8x128x256) S8x128x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x256.size a ≤ S128x256.size a
  hwx0_2 : ∀ i : grid0.Coords, EltTy.bits .i32 = 32 ∨ (Rect.block (s := S128x256) S16x256.size (cc0_transform_2 i) (hinb0_2 i)).WholeWords (EltTy.packing .i32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S8x128.size a ≤ S8x128.size a
  hwx0_3 : ∀ i : grid0.Coords, EltTy.bits .f32 = 32 ∨ (Rect.block (s := S8x128) S8x128.size (cc0_transform_3 i) (hinb0_3 i)).WholeWords (EltTy.packing .f32)

variable [Facts₀]

def dot_S256x128_S128x256_S256x256_1_0_0_1_n_n : DotDims S256x128 S128x256 S256x256 where
  lhsContracting := [1]
  rhsContracting := [0]
  lhsNonContracting := [0]
  rhsNonContracting := [1]
  lhsBatch := []
  rhsBatch := []
  wf := dot_S256x128_S128x256_S256x256_1_0_0_1_n_n_wf

abbrev win0_0 : Pipeline.Window sig grid0 :=
  Pipeline.Window.ofSpec (Memref.whole main_v0) S16x256x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S8x128x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S16x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S8x128.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev idle0 : Fin 4 → grid0.Coords → Bool := fun | 0 => fun _ => false | 1 => fun _ => false | 2 => fun _ => false | 3 => fun i => !(k0_cond2 i == 1#1) | ⟨_ + 4, h⟩ => absurd h (Nat.not_lt.2 (Nat.le_add_left _ _))

class Facts : Prop extends Facts₀ where

variable [Facts]
-- ==== ReferenceIdeal.lean ====
abbrev S128x256x128 : Shape := ⟨3, ![128, 256, 128]⟩
abbrev S128x256 : Shape := ⟨2, ![128, 256]⟩
abbrev S256x8x128 : Shape := ⟨3, ![256, 8, 128]⟩
abbrev S128x256x256x8 : Shape := ⟨4, ![128, 256, 256, 8]⟩
abbrev S_ : Shape := ⟨0, ![]⟩
abbrev S128x256x256 : Shape := ⟨3, ![128, 256, 256]⟩
abbrev S128x256x256x1 : Shape := ⟨4, ![128, 256, 256, 1]⟩
abbrev S256x256 : Shape := ⟨2, ![256, 256]⟩

abbrev nBuf : Space → Nat
  | .hbm => 63
  | .vmem => 0
  | .smem => 0
  | _ => 0

abbrev bufTy : (tb : Table) → Fin (tcTables nBuf tb) → BufTy
  | .hbm, ⟨0, _⟩ => ⟨S128x256x128, .f32⟩
  | .hbm, ⟨1, _⟩ => ⟨S128x256, .i32⟩
  | .hbm, ⟨2, _⟩ => ⟨S256x8x128, .f32⟩
  | .hbm, ⟨3, _⟩ => ⟨S128x256x256x8, .f32⟩
  | .hbm, ⟨4, _⟩ => ⟨S_, .f32⟩
  | .hbm, ⟨5, _⟩ => ⟨S128x256x256x8, .f32⟩
  | .hbm, ⟨6, _⟩ => ⟨S128x256x256x8, .f32⟩
  | .hbm, ⟨7, _⟩ => ⟨S_, .f32⟩
  | .hbm, ⟨8, _⟩ => ⟨S128x256x256, .f32⟩
  | .hbm, ⟨9, _⟩ => ⟨S_, .f32⟩
  | .hbm, ⟨10, _⟩ => ⟨S128x256x256, .f32⟩
  | .hbm, ⟨11, _⟩ => ⟨S128x256x256, .f32⟩
  | .hbm, ⟨12, _⟩ => ⟨S128x256x256x1, .f32⟩
  | .hbm, ⟨13, _⟩ => ⟨S128x256x256x8, .f32⟩
  | .hbm, ⟨14, _⟩ => ⟨S128x256x256x8, .f32⟩
  | .hbm, ⟨15, _⟩ => ⟨S128x256x256x8, .f32⟩
  | .hbm, ⟨16, _⟩ => ⟨S_, .f32⟩
  | .hbm, ⟨17, _⟩ => ⟨S128x256x256, .f32⟩
  | .hbm, ⟨18, _⟩ => ⟨S128x256x256x1, .f32⟩
  | .hbm, ⟨19, _⟩ => ⟨S128x256x256x8, .f32⟩
  | .hbm, ⟨20, _⟩ => ⟨S128x256x256x8, .f32⟩
  | .hbm, ⟨21, _⟩ => ⟨S128x256x256x8, .f32⟩
  | .hbm, ⟨22, _⟩ => ⟨S_, .f32⟩
  | .hbm, ⟨23, _⟩ => ⟨S128x256x256, .f32⟩
  | .hbm, ⟨24, _⟩ => ⟨S256x256, .i32⟩
  | .hbm, ⟨25, _⟩ => ⟨S256x256, .i32⟩
  | .hbm, ⟨26, _⟩ => ⟨S256x256, .i1⟩
  | .hbm, ⟨27, _⟩ => ⟨S128x256x256, .i1⟩
  | .hbm, ⟨28, _⟩ => ⟨S_, .f32⟩
  | .hbm, ⟨29, _⟩ => ⟨S128x256x256, .f32⟩
  | .hbm, ⟨30, _⟩ => ⟨S128x256x256, .f32⟩
  | .hbm, ⟨31, _⟩ => ⟨S_, .f32⟩
  | .hbm, ⟨32, _⟩ => ⟨S128x256, .f32⟩
  | .hbm, ⟨33, _⟩ => ⟨S_, .f32⟩
  | .hbm, ⟨34, _⟩ => ⟨S128x256, .f32⟩
  | .hbm, ⟨35, _⟩ => ⟨S128x256, .f32⟩
  | .hbm, ⟨36, _⟩ => ⟨S_, .f32⟩
  | .hbm, ⟨37, _⟩ => ⟨S128x256x256, .f32⟩
  | .hbm, ⟨38, _⟩ => ⟨S128x256x256, .f32⟩
  | .hbm, ⟨39, _⟩ => ⟨S128x256x256, .f32⟩
  | .hbm, ⟨40, _⟩ => ⟨S_, .f32⟩
  | .hbm, ⟨41, _⟩ => ⟨S128x256, .f32⟩
  | .hbm, ⟨42, _⟩ => ⟨S_, .f32⟩
  | .hbm, ⟨43, _⟩ => ⟨S128x256, .f32⟩
  | .hbm, ⟨44, _⟩ => ⟨S128x256, .f32⟩
  | .hbm, ⟨45, _⟩ => ⟨S128x256, .f32⟩
  | .hbm, ⟨46, _⟩ => ⟨S_, .f32⟩
  | .hbm, ⟨47, _⟩ => ⟨S128x256, .f32⟩
  | .hbm, ⟨48, _⟩ => ⟨S128x256, .f32⟩
  | .hbm, ⟨49, _⟩ => ⟨S128x256, .f32⟩
  | .hbm, ⟨50, _⟩ => ⟨S_, .i32⟩
  | .hbm, ⟨51, _⟩ => ⟨S128x256, .i32⟩
  | .hbm, ⟨52, _⟩ => ⟨S128x256, .i1⟩
  | .hbm, ⟨53, _⟩ => ⟨S128x256, .f32⟩
  | .hbm, ⟨54, _⟩ => ⟨S_, .f32⟩
  | .hbm, ⟨55, _⟩ => ⟨S_, .f32⟩
  | .hbm, ⟨56, _⟩ => ⟨S128x256, .f32⟩
  | .hbm, ⟨57, _⟩ => ⟨S_, .f32⟩
  | .hbm, ⟨58, _⟩ => ⟨S_, .f32⟩
  | .hbm, ⟨59, _⟩ => ⟨S_, .f32⟩
  | .hbm, ⟨60, _⟩ => ⟨S_, .i1⟩
  | .hbm, ⟨61, _⟩ => ⟨S_, .f32⟩
  | .hbm, ⟨62, _⟩ => ⟨S_, .f32⟩
  | _, _ => ⟨S128x256x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_cst_1 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_2 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_cst_3 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_cst_5 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_v24 : Ref sig .tc := ⟨.hbm, 35, rfl⟩
abbrev main_cst_7 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_8 : Ref sig .tc := ⟨.hbm, 40, rfl⟩
abbrev main_v28 : Ref sig .tc := ⟨.hbm, 41, rfl⟩
abbrev main_cst_9 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_cst_10 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_c : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_cst_11 : Ref sig .tc := ⟨.hbm, 54, rfl⟩
abbrev main_v38 : Ref sig .tc := ⟨.hbm, 55, rfl⟩
abbrev main_v39 : Ref sig .tc := ⟨.hbm, 56, rfl⟩
abbrev main_cst_12 : Ref sig .tc := ⟨.hbm, 57, rfl⟩
abbrev main_v40 : Ref sig .tc := ⟨.hbm, 58, rfl⟩
abbrev main_cst_13 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]

class Facts₀ : Prop where
  bcast_S_S128x256x256x8 : S_.BroadcastsInDim S128x256x256x8 (![] : Fin 0 → Fin S128x256x256x8.rank)
  reducesTo_S128x256x256x8_S128x256x256_d3 : S128x256x256x8.ReducesTo [3] S128x256x256
  h_S_ : 0 < S_.numel
  bcast_S_S128x256x256 : S_.BroadcastsInDim S128x256x256 (![] : Fin 0 → Fin S128x256x256.rank)
  bcast_S128x256x256_S128x256x256x1_0_1_2 : S128x256x256.BroadcastsInDim S128x256x256x1 (![0, 1, 2] : Fin 3 → Fin S128x256x256x1.rank)
  bcast_S128x256x256x1_S128x256x256x8_0_1_2_3 : S128x256x256x1.BroadcastsInDim S128x256x256x8 (![0, 1, 2, 3] : Fin 4 → Fin S128x256x256x8.rank)
  bcast_S256x256_S128x256x256_1_2 : S256x256.BroadcastsInDim S128x256x256 (![1, 2] : Fin 2 → Fin S128x256x256.rank)
  reducesTo_S128x256x256_S128x256_d1 : S128x256x256.ReducesTo [1] S128x256
  bcast_S_S128x256 : S_.BroadcastsInDim S128x256 (![] : Fin 0 → Fin S128x256.rank)
  reducesTo_S128x256x256_S128x256_d2 : S128x256x256.ReducesTo [2] S128x256
  reducesTo_S128x256_S_d0_1 : S128x256.ReducesTo [0, 1] S_
  dot_S128x256x128_S256x8x128_S128x256x256x8_2_2_01_01_n_n_wf : DotDims.WF S128x256x128 S256x8x128 S128x256x256x8 [2] [2] [0, 1] [0, 1] [] []

variable [Facts₀]

def dot_S128x256x128_S256x8x128_S128x256x256x8_2_2_01_01_n_n : DotDims S128x256x128 S256x8x128 S128x256x256x8 where
  lhsContracting := [2]
  rhsContracting := [2]
  lhsNonContracting := [0, 1]
  rhsNonContracting := [0, 1]
  lhsBatch := []
  rhsBatch := []
  wf := dot_S128x256x128_S256x8x128_S128x256x256x8_2_2_01_01_n_n_wf

class Facts : Prop extends Facts₀ where

variable [Facts]
-- ==== Proof.Steps.lean ====
/-
  One trip of the kernel's loop, as two pure functions of what the trip loads: what it leaves in the
  accumulator of the labelled losses and in the accumulator of the label count; and what the last grid
  point writes to the output block from the two accumulators.
-/
import proofs.«410938_j52493090291884_4_alg».proof.Proof.Gen.KernelIdeal.Skeleton

noncomputable section

namespace Cert.KernelIdeal.Steps

open Cert.KernelIdeal Cert.KernelIdeal.Gen Idealize.ShloMosaic

variable {F : FTy → Type} [FloatOps F]

/-- The labelled-loss accumulator after one more batch row: from the row's queries `q` (one slab of the
    query block), the eight prototype slabs `p`, the row's labels and the accumulator before. -/
def totalStep (q : Vec F S1x256x128 .bf16) (p : Fin 8 → Vec F S1x128x256 .bf16) (lab : Vec F S1x256 .i32)
    (acc : Vec F S8x1 .f32) : Vec F S8x1 .f32 :=
  k0_pay28 (k0_pay3 (F := F))
    (k0_pay23 (k0_pay6 q) (k0_pay13 q (p 0) (p 1) (p 2)) (p 3) (p 4) (p 5) (p 6))
    (k0_pay24 (k0_pay6 q) (k0_pay14 q (p 0) (p 1) (p 2)) (p 3) (p 4) (p 5) (p 6))
    (k0_pay25 (k0_pay6 q) (p 7)) (FloatOps.ofBits .f32 0x41A00000#32) lab acc

/-- The label-count accumulator after one more batch row. -/
def countStep (lab : Vec F S1x256 .i32) (acc : Vec F S8x1 .f32) : Vec F S8x1 .f32 :=
  k0_pay4 (k0_pay27 lab) acc

/-- The output block the last grid point stores, from the two accumulators. -/
def finish (tot cnt : Vec F S8x1 .f32) : Vec F S8x128 .f32 := k0_pay5 tot cnt

end Cert.KernelIdeal.Steps

end
-- ==== Proof.KLoop.lean ====
/-
  The loop of one grid point, read as values. A trip stores, into each of the two accumulators, one whole
  block: the step function of the slabs the trip loads and of what the accumulator held. So after `n` trips
  the accumulators hold the `n`-fold iterate of the two step functions over the contents at loop entry.
-/
import proofs.«410938_j52493090291884_4_alg».proof.Proof.Gen.KernelIdeal.Frame
import proofs.«410938_j52493090291884_4_alg».proof.Proof.Steps
import Idealize.ShloMosaic.Lib.Pipeline.Value

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The offsets of an accumulator's one rectangle are all zero: it is the whole block. -/
theorem accOff_zero : (![0, 0] : Fin S8x1.rank → ℕ) = fun _ => 0 := by
  funext a; match a with | ⟨0, _⟩ => rfl | ⟨1, _⟩ => rfl

/-- The three slabs a trip loads: the trip's row of the query block, the eight prototype slabs (the same at every
    trip), the trip's row of the label block. -/
def qSlab (arg1 : Memref sig .tc .vmem S16x256x128 .bf16) (X1 : BufTy.Contents (Elt F) arg1.view.ty) (k : Fin k0_t1_loop.trips) : Vec F S1x256x128 .bf16 :=
  arg1.view.readAt (Elt F) (Rect.unit (s := S16x256x128) (k0_off1 k) S1x256x128.size (k0_off1_inb k)).toLoadRect X1

def pSlabs (arg2 : Memref sig .tc .vmem S8x128x256 .bf16) (X2 : BufTy.Contents (Elt F) arg2.view.ty) : Fin 8 → Vec F S1x128x256 .bf16 :=
  ![arg2.view.readAt (Elt F) (Rect.unit (s := S8x128x256) ![0, 0, 0] S1x128x256.size inb_S8x128x256_S1x128x256_0_0_0).toLoadRect X2,
    arg2.view.readAt (Elt F) (Rect.unit (s := S8x128x256) ![1, 0, 0] S1x128x256.size inb_S8x128x256_S1x128x256_1_0_0).toLoadRect X2,
    arg2.view.readAt (Elt F) (Rect.unit (s := S8x128x256) ![2, 0, 0] S1x128x256.size inb_S8x128x256_S1x128x256_2_0_0).toLoadRect X2,
    arg2.view.readAt (Elt F) (Rect.unit (s := S8x128x256) ![3, 0, 0] S1x128x256.size inb_S8x128x256_S1x128x256_3_0_0).toLoadRect X2,
    arg2.view.readAt (Elt F) (Rect.unit (s := S8x128x256) ![4, 0, 0] S1x128x256.size inb_S8x128x256_S1x128x256_4_0_0).toLoadRect X2,
    arg2.view.readAt (Elt F) (Rect.unit (s := S8x128x256) ![5, 0, 0] S1x128x256.size inb_S8x128x256_S1x128x256_5_0_0).toLoadRect X2,
    arg2.view.readAt (Elt F) (Rect.unit (s := S8x128x256) ![6, 0, 0] S1x128x256.size inb_S8x128x256_S1x128x256_6_0_0).toLoadRect X2,
    arg2.view.readAt (Elt F) (Rect.unit (s := S8x128x256) ![7, 0, 0] S1x128x256.size inb_S8x128x256_S1x128x256_7_0_0).toLoadRect X2]

def labSlab (arg3 : Memref sig .tc .vmem S16x256 .i32) (X3 : BufTy.Contents (Elt F) arg3.view.ty) (k : Fin k0_t1_loop.trips) : Vec F S1x256 .i32 :=
  arg3.view.readAt (Elt F) (Rect.unit (s := S16x256) (k0_off2 k) S1x256.size (k0_off2_inb k)).toLoadRect X3

/-! ## One trip's pieces -/

/-- A trip stores ONE whole block into the labelled-loss accumulator: the step of the trip's slabs and of what
    the accumulator holds. -/
theorem trip_total (𝒱 : Variants) (c : Dev nD) (bd : Option 𝒱.V) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (X_arg1 : BufTy.Contents (Elt F) arg1.view.ty) (X_arg2 : BufTy.Contents (Elt F) arg2.view.ty) (X_arg3 : BufTy.Contents (Elt F) arg3.view.ty) (k : Fin k0_t1_loop.trips)
    (f5 : BufTy.Contents (Elt F) arg5.view.ty) (f6 : BufTy.Contents (Elt F) arg6.view.ty) :
    (tripL_k0_t1 (F := F) 𝒱 c bd i arg1 harg1 arg2 harg2 arg3 harg3 arg4 harg4 arg5 harg5 arg6 harg6 X_arg1 X_arg2 X_arg3 k f5 f6).1
      = [⟨Rect.unit (s := S8x1) ![0, 0] S8x1.size inb_S8x1_S8x1_0_0,
          totalStep (qSlab arg1 X_arg1 k) (pSlabs arg2 X_arg2) (labSlab arg3 X_arg3 k)
            (arg5.view.readAt (Elt F) (Rect.unit (s := S8x1) ![0, 0] S8x1.size inb_S8x1_S8x1_0_0).toLoadRect f5)⟩] := by
  unfold tripL_k0_t1 trip_k0_t1
  dsimp only
  sl_unfold_words
  rfl

/-- and ONE whole block into the count accumulator. -/
theorem trip_count (𝒱 : Variants) (c : Dev nD) (bd : Option 𝒱.V) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (X_arg1 : BufTy.Contents (Elt F) arg1.view.ty) (X_arg2 : BufTy.Contents (Elt F) arg2.view.ty) (X_arg3 : BufTy.Contents (Elt F) arg3.view.ty) (k : Fin k0_t1_loop.trips)
    (f5 : BufTy.Contents (Elt F) arg5.view.ty) (f6 : BufTy.Contents (Elt F) arg6.view.ty) :
    (tripL_k0_t1 (F := F) 𝒱 c bd i arg1 harg1 arg2 harg2 arg3 harg3 arg4 harg4 arg5 harg5 arg6 harg6 X_arg1 X_arg2 X_arg3 k f5 f6).2
      = [⟨Rect.unit (s := S8x1) ![0, 0] S8x1.size inb_S8x1_S8x1_0_0,
          countStep (labSlab arg3 X_arg3 k)
            (arg6.view.readAt (Elt F) (Rect.unit (s := S8x1) ![0, 0] S8x1.size inb_S8x1_S8x1_0_0).toLoadRect f6)⟩] := by
  unfold tripL_k0_t1 trip_k0_t1
  dsimp only
  sl_unfold_words
  rfl

/-! ## The accumulators after `n` trips -/

/-- The two accumulators after the first `n` trips, from what they hold at loop entry: the iterate of the two steps. -/
def afterTrips (arg1 : Memref sig .tc .vmem S16x256x128 .bf16) (arg2 : Memref sig .tc .vmem S8x128x256 .bf16) (arg3 : Memref sig .tc .vmem S16x256 .i32) (X1 : BufTy.Contents (Elt F) arg1.view.ty) (X2 : BufTy.Contents (Elt F) arg2.view.ty)
    (X3 : BufTy.Contents (Elt F) arg3.view.ty) (g5 g6 : Vec F S8x1 .f32) : ℕ → Vec F S8x1 .f32 × Vec F S8x1 .f32
  | 0 => (g5, g6)
  | n + 1 =>
    if h : n < k0_t1_loop.trips then
      (totalStep (qSlab arg1 X1 ⟨n, h⟩) (pSlabs arg2 X2) (labSlab arg3 X3 ⟨n, h⟩) (afterTrips arg1 arg2 arg3 X1 X2 X3 g5 g6 n).1,
        countStep (labSlab arg3 X3 ⟨n, h⟩) (afterTrips arg1 arg2 arg3 X1 X2 X3 g5 g6 n).2)
    else afterTrips arg1 arg2 arg3 X1 X2 X3 g5 g6 n

/-- A whole-block store, last, is what the accumulator then reads. -/
theorem read_writes_accBlock {arg : Memref sig .tc .vmem S8x1 .f32} (f : BufTy.Contents (Elt F) arg.view.ty)
    (w : S8x1.Idx → Elt F .f32) (L : List (View.Piece (Elt F) S8x1 .f32)) :
    arg.view.read (Elt F) (arg.view.writes (Elt F) f
        ((⟨Rect.unit (s := S8x1) ![0, 0] S8x1.size inb_S8x1_S8x1_0_0, w⟩ : View.Piece (Elt F) S8x1 .f32) :: L)) = w := by
  rw [View.read_writes_eq_canon _ _ _ (fun y => ⟨_, List.mem_cons_self, View.mem_set_unit_zero accOff_zero inb_S8x1_S8x1_0_0 y⟩),
    View.canon_cons_unit_zero accOff_zero]

/-- A load of the whole accumulator reads its contents. -/
theorem readAt_accBlock {arg : Memref sig .tc .vmem S8x1 .f32} (f : BufTy.Contents (Elt F) arg.view.ty) :
    arg.view.readAt (Elt F) (Rect.unit (s := S8x1) ![0, 0] S8x1.size inb_S8x1_S8x1_0_0).toLoadRect f = arg.view.read (Elt F) f := by
  rw [View.readAt_eq_ld, View.ld_unit_zero accOff_zero]

/-- After `n` trips the accumulators read the `n`-fold iterate of the steps over what they read at loop entry. -/
theorem read_after_trips (𝒱 : Variants) (c : Dev nD) (bd : Option 𝒱.V) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (X_arg1 : BufTy.Contents (Elt F) arg1.view.ty) (X_arg2 : BufTy.Contents (Elt F) arg2.view.ty) (X_arg3 : BufTy.Contents (Elt F) arg3.view.ty) (G5 : BufTy.Contents (Elt F) arg5.view.ty) (G6 : BufTy.Contents (Elt F) arg6.view.ty) :
    ∀ n, n ≤ k0_t1_loop.trips →
      arg5.view.read (Elt F) (arg5.view.writes (Elt F) G5 (pb_k0_t1 (F := F) 𝒱 c bd i arg1 harg1 arg2 harg2 arg3 harg3 arg4 harg4 arg5 harg5 arg6 harg6 X_arg1 X_arg2 X_arg3 G5 G6 n).1)
          = (afterTrips arg1 arg2 arg3 X_arg1 X_arg2 X_arg3 (arg5.view.read (Elt F) G5) (arg6.view.read (Elt F) G6) n).1
        ∧ arg6.view.read (Elt F) (arg6.view.writes (Elt F) G6 (pb_k0_t1 (F := F) 𝒱 c bd i arg1 harg1 arg2 harg2 arg3 harg3 arg4 harg4 arg5 harg5 arg6 harg6 X_arg1 X_arg2 X_arg3 G5 G6 n).2)
          = (afterTrips arg1 arg2 arg3 X_arg1 X_arg2 X_arg3 (arg5.view.read (Elt F) G5) (arg6.view.read (Elt F) G6) n).2
  | 0, _ => ⟨rfl, rfl⟩
  | n + 1, hn => by
    have h : n < k0_t1_loop.trips := hn
    obtain ⟨ih5, ih6⟩ := read_after_trips 𝒱 c bd i arg1 harg1 arg2 harg2 arg3 harg3 arg4 harg4 arg5 harg5 arg6 harg6 X_arg1 X_arg2 X_arg3 G5 G6 n (Nat.le_of_lt h)
    have hs := pb_k0_t1_succ (F := F) 𝒱 c bd i arg1 harg1 arg2 harg2 arg3 harg3 arg4 harg4 arg5 harg5 arg6 harg6 X_arg1 X_arg2 X_arg3 G5 G6 ⟨n, h⟩
    rw [show (⟨n, h⟩ : Fin k0_t1_loop.trips).val + 1 = n + 1 from rfl] at hs
    rw [hs, trip_total, trip_count]
    simp only [List.singleton_append, afterTrips, dif_pos h]
    rw [read_writes_accBlock, read_writes_accBlock, readAt_accBlock, readAt_accBlock, ih5, ih6]
    exact ⟨rfl, rfl⟩

end Cert.KernelIdeal.Steps

end
-- ==== Proof.KCases.lean ====
/-
  What one grid point leaves, case by case, as values: at the first point the accumulators are zeroed and then
  run through the sixteen trips; at a middle point they run through the trips from what the point before left;
  at the last point they do the same and the output block is formed from them.
-/
import proofs.«410938_j52493090291884_4_alg».proof.Proof.KLoop

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

/-- The offsets of the output block's one rectangle are all zero: it is the whole block. -/
theorem outOff_zero : (![0, 0] : Fin S8x128.rank → ℕ) = fun _ => 0 := by
  funext a; match a with | ⟨0, _⟩ => rfl | ⟨1, _⟩ => rfl

/-! ## A middle point -/

theorem piecesB_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i) (x0 : Vec F S16x256x128 .bf16) (x1 : Vec F S8x128x256 .bf16) (x2 : Vec F S16x256 .i32) (xs0 xs1 : Vec F S8x1 .f32) :
    (kernelRun0_B c i arg1 harg1 arg2 harg2 arg3 harg3 arg4 harg4 arg5 harg5 arg6 harg6 hc0 hc1 x0 x1 x2 xs0 xs1).2.1 = (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).1 := by
  unfold kernelRun0_B; rfl

theorem piecesB_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i) (x0 : Vec F S16x256x128 .bf16) (x1 : Vec F S8x128x256 .bf16) (x2 : Vec F S16x256 .i32) (xs0 xs1 : Vec F S8x1 .f32) :
    (kernelRun0_B c i arg1 harg1 arg2 harg2 arg3 harg3 arg4 harg4 arg5 harg5 arg6 harg6 hc0 hc1 x0 x1 x2 xs0 xs1).2.2.1 = (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).2 := by
  unfold kernelRun0_B; rfl

/-- At a middle point the labelled-loss accumulator ends at the sixteen trips' iterate over what the point before left. -/
theorem soutB_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i) (x0 : Vec F S16x256x128 .bf16) (x1 : Vec F S8x128x256 .bf16) (x2 : Vec F S16x256 .i32) (xs0 xs1 : Vec F S8x1 .f32) :
    sout0_B_0 c i arg1 harg1 arg2 harg2 arg3 harg3 arg4 harg4 arg5 harg5 arg6 harg6 hc0 hc1 x0 x1 x2 xs0 xs1 = (afterTrips arg1 arg2 arg3 (harg1.unread x0) (harg2.unread x1) (harg3.unread x2) xs0 xs1 k0_t1_loop.trips).1 := by
  unfold sout0_B_0
  rw [View.read_writes_of_cover VS0_0 VS0_0.junk arg5.view (harg5.unread xs0) _
    (scover0_B_0 c i arg1 harg1 arg2 harg2 arg3 harg3 arg4 harg4 arg5 harg5 arg6 harg6 hc0 hc1 x0 x1 x2 xs0 xs1), piecesB_total,
    (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).1, harg5.read_unread, harg6.read_unread]

theorem soutB_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : ¬cond0_1 i) (x0 : Vec F S16x256x128 .bf16) (x1 : Vec F S8x128x256 .bf16) (x2 : Vec F S16x256 .i32) (xs0 xs1 : Vec F S8x1 .f32) :
    sout0_B_1 c i arg1 harg1 arg2 harg2 arg3 harg3 arg4 harg4 arg5 harg5 arg6 harg6 hc0 hc1 x0 x1 x2 xs0 xs1 = (afterTrips arg1 arg2 arg3 (harg1.unread x0) (harg2.unread x1) (harg3.unread x2) xs0 xs1 k0_t1_loop.trips).2 := by
  unfold sout0_B_1
  rw [View.read_writes_of_cover VS0_1 VS0_1.junk arg6.view (harg6.unread xs1) _
    (scover0_B_1 c i arg1 harg1 arg2 harg2 arg3 harg3 arg4 harg4 arg5 harg5 arg6 harg6 hc0 hc1 x0 x1 x2 xs0 xs1), piecesB_count,
    (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).2, harg5.read_unread, harg6.read_unread]

/-! ## The first point -/

theorem piecesA_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i) (x0 : Vec F S16x256x128 .bf16) (x1 : Vec F S8x128x256 .bf16) (x2 : Vec F S16x256 .i32) :
    (kernelRun0_A c i arg1 harg1 arg2 harg2 arg3 harg3 arg4 harg4 arg5 harg5 arg6 harg6 hc0 hc1 x0 x1 x2).2.1 = (pb_k0_t1 (F := F) Variants.none c none i arg1 harg1 arg2 harg2 arg3 harg3 arg4 harg4 arg5 harg5 arg6 harg6 (harg1.unread x0) (harg2.unread x1) (harg3.unread x2) (arg5.view.writes (Elt F) arg5.view.junk [(⟨Rect.unit (s := S8x1) ![0, 0] S8x1.size inb_S8x1_S8x1_0_0, k0_pay1 (F := F)⟩ : View.Piece (Elt F) S8x1 .f32)]) (arg6.view.writes (Elt F) arg6.view.junk [(⟨Rect.unit (s := S8x1) ![0, 0] S8x1.size inb_S8x1_S8x1_0_0, k0_pay2 (F := F)⟩ : View.Piece (Elt F) S8x1 .f32)]) k0_t1_loop.trips).1 ++ [(⟨Rect.unit (s := S8x1) ![0, 0] S8x1.size inb_S8x1_S8x1_0_0, k0_pay1 (F := F)⟩ : View.Piece (Elt F) S8x1 .f32)] := by
  unfold kernelRun0_A; dsimp only; sl_unfold_words; rfl

theorem piecesA_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i) (x0 : Vec F S16x256x128 .bf16) (x1 : Vec F S8x128x256 .bf16) (x2 : Vec F S16x256 .i32) :
    (kernelRun0_A c i arg1 harg1 arg2 harg2 arg3 harg3 arg4 harg4 arg5 harg5 arg6 harg6 hc0 hc1 x0 x1 x2).2.2.1 = (pb_k0_t1 (F := F) Variants.none c none i arg1 harg1 arg2 harg2 arg3 harg3 arg4 harg4 arg5 harg5 arg6 harg6 (harg1.unread x0) (harg2.unread x1) (harg3.unread x2) (arg5.view.writes (Elt F) arg5.view.junk [(⟨Rect.unit (s := S8x1) ![0, 0] S8x1.size inb_S8x1_S8x1_0_0, k0_pay1 (F := F)⟩ : View.Piece (Elt F) S8x1 .f32)]) (arg6.view.writes (Elt F) arg6.view.junk [(⟨Rect.unit (s := S8x1) ![0, 0] S8x1.size inb_S8x1_S8x1_0_0, k0_pay2 (F := F)⟩ : View.Piece (Elt F) S8x1 .f32)]) k0_t1_loop.trips).2 ++ [(⟨Rect.unit (s := S8x1) ![0, 0] S8x1.size inb_S8x1_S8x1_0_0, k0_pay2 (F := F)⟩ : View.Piece (Elt F) S8x1 .f32)] := by
  unfold kernelRun0_A; dsimp only; sl_unfold_words; rfl

/-- At the first point the labelled-loss accumulator ends at the sixteen trips' iterate over the zero block. -/
theorem soutA_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i) (x0 : Vec F S16x256x128 .bf16) (x1 : Vec F S8x128x256 .bf16) (x2 : Vec F S16x256 .i32) :
    sout0_A_0 c i arg1 harg1 arg2 harg2 arg3 harg3 arg4 harg4 arg5 harg5 arg6 harg6 hc0 hc1 x0 x1 x2 = (afterTrips arg1 arg2 arg3 (harg1.unread x0) (harg2.unread x1) (harg3.unread x2) (k0_pay1 (F := F)) (k0_pay2 (F := F)) k0_t1_loop.trips).1 := by
  unfold sout0_A_0
  rw [View.read_writes_of_cover VS0_0 VS0_0.junk arg5.view arg5.view.junk _
    (scover0_A_0 c i arg1 harg1 arg2 harg2 arg3 harg3 arg4 harg4 arg5 harg5 arg6 harg6 hc0 hc1 x0 x1 x2), piecesA_total, View.writes_append,
    (read_after_trips (F := F) Variants.none c none i arg1 harg1 arg2 harg2 arg3 harg3 arg4 harg4 arg5 harg5 arg6 harg6 (harg1.unread x0) (harg2.unread x1) (harg3.unread x2) (arg5.view.writes (Elt F) arg5.view.junk [(⟨Rect.unit (s := S8x1) ![0, 0] S8x1.size inb_S8x1_S8x1_0_0, k0_pay1 (F := F)⟩ : View.Piece (Elt F) S8x1 .f32)]) (arg6.view.writes (Elt F) arg6.view.junk [(⟨Rect.unit (s := S8x1) ![0, 0] S8x1.size inb_S8x1_S8x1_0_0, k0_pay2 (F := F)⟩ : View.Piece (Elt F) S8x1 .f32)]) k0_t1_loop.trips le_rfl).1, read_writes_accBlock, read_writes_accBlock]

theorem soutA_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : cond0_0 i) (hc1 : ¬cond0_1 i) (x0 : Vec F S16x256x128 .bf16) (x1 : Vec F S8x128x256 .bf16) (x2 : Vec F S16x256 .i32) :
    sout0_A_1 c i arg1 harg1 arg2 harg2 arg3 harg3 arg4 harg4 arg5 harg5 arg6 harg6 hc0 hc1 x0 x1 x2 = (afterTrips arg1 arg2 arg3 (harg1.unread x0) (harg2.unread x1) (harg3.unread x2) (k0_pay1 (F := F)) (k0_pay2 (F := F)) k0_t1_loop.trips).2 := by
  unfold sout0_A_1
  rw [View.read_writes_of_cover VS0_1 VS0_1.junk arg6.view arg6.view.junk _
    (scover0_A_1 c i arg1 harg1 arg2 harg2 arg3 harg3 arg4 harg4 arg5 harg5 arg6 harg6 hc0 hc1 x0 x1 x2), piecesA_count, View.writes_append,
    (read_after_trips (F := F) Variants.none c none i arg1 harg1 arg2 harg2 arg3 harg3 arg4 harg4 arg5 harg5 arg6 harg6 (harg1.unread x0) (harg2.unread x1) (harg3.unread x2) (arg5.view.writes (Elt F) arg5.view.junk [(⟨Rect.unit (s := S8x1) ![0, 0] S8x1.size inb_S8x1_S8x1_0_0, k0_pay1 (F := F)⟩ : View.Piece (Elt F) S8x1 .f32)]) (arg6.view.writes (Elt F) arg6.view.junk [(⟨Rect.unit (s := S8x1) ![0, 0] S8x1.size inb_S8x1_S8x1_0_0, k0_pay2 (F := F)⟩ : View.Piece (Elt F) S8x1 .f32)]) k0_t1_loop.trips le_rfl).2, read_writes_accBlock, read_writes_accBlock]

/-! ## The last point -/

theorem piecesC_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    (kernelRun0_C c i arg1 harg1 arg2 harg2 arg3 harg3 arg4 harg4 arg5 harg5 arg6 harg6 hc0 hc1 x0 x1 x2 xs0 xs1).2.1 = (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).1 := by
  unfold kernelRun0_C; rfl

theorem piecesC_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    (kernelRun0_C c i arg1 harg1 arg2 harg2 arg3 harg3 arg4 harg4 arg5 harg5 arg6 harg6 hc0 hc1 x0 x1 x2 xs0 xs1).2.2.1 = (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).2 := by
  unfold kernelRun0_C; rfl

theorem piecesC_out (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    (kernelRun0_C c i arg1 harg1 arg2 harg2 arg3 harg3 arg4 harg4 arg5 harg5 arg6 harg6 hc0 hc1 x0 x1 x2 xs0 xs1).1
      = [⟨Rect.unit (s := S8x128) ![0, 0] S8x128.size inb_S8x128_S8x128_0_0,
          finish
            (arg5.view.readAt (Elt F) (Rect.unit (s := S8x1) ![0, 0] S8x1.size inb_S8x1_S8x1_0_0).toLoadRect
              (arg5.view.writes (Elt F) (harg5.unread xs0) (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).1))
            (arg6.view.readAt (Elt F) (Rect.unit (s := S8x1) ![0, 0] S8x1.size inb_S8x1_S8x1_0_0).toLoadRect
              (arg6.view.writes (Elt F) (harg6.unread xs1) (pb_k0_t1 (F := F) Variants.none c none i arg1 harg1 arg2 harg2 arg3 harg3 arg4 harg4 arg5 harg5 arg6 harg6 (harg1.unread x0) (harg2.unread x1) (harg3.unread x2) (harg5.unread xs0) (harg6.unread xs1) k0_t1_loop.trips).2))⟩] := by
  unfold kernelRun0_C; dsimp only; sl_unfold_words; rfl

theorem soutC_total (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    sout0_C_0 c i arg1 harg1 arg2 harg2 arg3 harg3 arg4 harg4 arg5 harg5 arg6 harg6 hc0 hc1 x0 x1 x2 xs0 xs1 = (afterTrips arg1 arg2 arg3 (harg1.unread x0) (harg2.unread x1) (harg3.unread x2) xs0 xs1 k0_t1_loop.trips).1 := by
  unfold sout0_C_0
  rw [View.read_writes_of_cover VS0_0 VS0_0.junk arg5.view (harg5.unread xs0) _
    (scover0_C_0 c i arg1 harg1 arg2 harg2 arg3 harg3 arg4 harg4 arg5 harg5 arg6 harg6 hc0 hc1 x0 x1 x2 xs0 xs1), piecesC_total,
    (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).1, harg5.read_unread, harg6.read_unread]

theorem soutC_count (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    sout0_C_1 c i arg1 harg1 arg2 harg2 arg3 harg3 arg4 harg4 arg5 harg5 arg6 harg6 hc0 hc1 x0 x1 x2 xs0 xs1 = (afterTrips arg1 arg2 arg3 (harg1.unread x0) (harg2.unread x1) (harg3.unread x2) xs0 xs1 k0_t1_loop.trips).2 := by
  unfold sout0_C_1
  rw [View.read_writes_of_cover VS0_1 VS0_1.junk arg6.view (harg6.unread xs1) _
    (scover0_C_1 c i arg1 harg1 arg2 harg2 arg3 harg3 arg4 harg4 arg5 harg5 arg6 harg6 hc0 hc1 x0 x1 x2 xs0 xs1), piecesC_count,
    (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).2, harg5.read_unread, harg6.read_unread]

/-- At the last point the output block is formed from the two accumulators as the trips leave them. -/
theorem outC (c : Dev nD) (i : grid0.Coords) (arg1 : Memref sig .tc .vmem S16x256x128 .bf16) (harg1 : arg1.IsWhole) (arg2 : Memref sig .tc .vmem S8x128x256 .bf16) (harg2 : arg2.IsWhole) (arg3 : Memref sig .tc .vmem S16x256 .i32) (harg3 : arg3.IsWhole) (arg4 : Memref sig .tc .vmem S8x128 .f32) (harg4 : arg4.IsWhole) (arg5 : Memref sig .tc .vmem S8x1 .f32) (harg5 : arg5.IsWhole) (arg6 : Memref sig .tc .vmem S8x1 .f32) (harg6 : arg6.IsWhole) (hc0 : ¬cond0_0 i) (hc1 : cond0_1 i) (x0 : Vec F S16x256x128 .bf16) (x1 : Vec F S8x128x256 .bf16) (x2 : Vec F S16x256 .i32) (xs0 xs1 : Vec F S8x1 .f32) :
    out0_C_3 c i arg1 harg1 arg2 harg2 arg3 harg3 arg4 harg4 arg5 harg5 arg6 harg6 hc0 hc1 x0 x1 x2 xs0 xs1 = finish (afterTrips arg1 arg2 arg3 (harg1.unread x0) (harg2.unread x1) (harg3.unread x2) xs0 xs1 k0_t1_loop.trips).1 (afterTrips arg1 arg2 arg3 (harg1.unread x0) (harg2.unread x1) (harg3.unread x2) xs0 xs1 k0_t1_loop.trips).2 := by
  unfold out0_C_3
  rw [View.read_writes_junk_eq_canon, piecesC_out, View.canon_unit_zero outOff_zero, readAt_accBlock, readAt_accBlock,
    (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).1, (read_after_trips (F := F) Variants.none c none i arg1 harg1 arg2 harg2 arg3 harg3 arg4 harg4 arg5 harg5 arg6 harg6 (harg1.unread x0) (harg2.unread x1) (harg3.unread x2) (harg5.unread xs0) (harg6.unread xs1) k0_t1_loop.trips le_rfl).2,
    harg5.read_unread, harg6.read_unread]

end Cert.KernelIdeal.Steps

end
-- ==== Proof.Spec.lean ====
/-
  The loss both programs compute, written once over plain index functions on the extended reals.

  One batch row holds 256 query vectors of length 128 (`row k d`); there are 256 concepts of 8 prototype
  vectors each (`proto c m d`). The score of query `k` against prototype `m` of concept `c` is their inner
  product. A concept's similarity is the average of its eight scores weighted by `exp (20 · score)`.
  A query's loss is `log (Σ_c exp (20 · sim k c) + ε) − 20 · (sim k k + margin)`, and the result is the mean
  of the losses of the queries whose label is 1 (their plain sum when there is none).

  The two programs differ in how they spell this: the kernel forms the weighted average as one quotient
  of two running sums and picks the diagonal by multiplying with a 0/1 matrix, adding one batch row after
  the other; the reference subtracts the largest scaled score before exponentiating, normalises term by
  term, selects the diagonal, and sums over the whole batch at once. Both spellings are stated here; that
  they agree on finite inputs is proved separately.
-/
import Idealize.ShloMosaic.PureOps.Ideal

noncomputable section

namespace ProtoLoss

open Idealize.ShloMosaic

/-- The five literals, as the extended reals their words denote: 20, 0.05 and 1e-8 rounded to single precision,
    zero, and minus infinity. -/
abbrev gain : EReal := Ideal.ofBits .f32 0x41A00000#32
abbrev margin : EReal := Ideal.ofBits .f32 0x3D4CCCCD#32
abbrev eps : EReal := Ideal.ofBits .f32 0x322BCC77#32
abbrev zero : EReal := Ideal.ofBits .f32 0x00000000#32
abbrev negInf : EReal := Ideal.ofBits .f32 0xFF800000#32

/-- Inner product of query `k` of a batch row with prototype `m` of concept `c`. -/
def score (row : Fin 256 → Fin 128 → EReal) (proto : Fin 256 → Fin 8 → Fin 128 → EReal) (k c : Fin 256) (m : Fin 8) : EReal :=
  ∑ d : Fin 128, row k d * proto c m d

/-- The weight of a score. -/
def wt (x : EReal) : EReal := Ideal.exp (gain * x)

/-- The weighted average of eight scores as the kernel forms it: two running sums from zero, one quotient. -/
def avgK (s : Fin 8 → EReal) : EReal :=
  Ideal.div
    (zero + wt (s 0) * s 0 + wt (s 1) * s 1 + wt (s 2) * s 2 + wt (s 3) * s 3 + wt (s 4) * s 4 + wt (s 5) * s 5
      + wt (s 6) * s 6 + wt (s 7) * s 7)
    (zero + wt (s 0) + wt (s 1) + wt (s 2) + wt (s 3) + wt (s 4) + wt (s 5) + wt (s 6) + wt (s 7))

/-- The largest scaled score, as the reference folds it from minus infinity. -/
def shiftR (s : Fin 8 → EReal) : EReal :=
  max negInf ((Finset.univ : Finset (Fin 8)).fold max negInf fun m => gain * s m)

/-- The weighted average as the reference forms it: every exponent shifted by the largest one, each weight
    normalised by the shifted weights' sum before it multiplies its score. -/
def avgR (s : Fin 8 → EReal) : EReal :=
  zero + ∑ m : Fin 8,
    Ideal.div (Ideal.exp (gain * s m - shiftR s)) (zero + ∑ m' : Fin 8, Ideal.exp (gain * s m' - shiftR s)) * s m

/-- 1 where a label word is 1, else 0. -/
def maskW (w : BitVec 32) : EReal := if w = 1#32 then 1 else 0

section Row

variable (row : Fin 256 → Fin 128 → EReal) (proto : Fin 256 → Fin 8 → Fin 128 → EReal)

/-- Similarity of query `k` and concept `c`, in the kernel's and in the reference's spelling. -/
def simK (k c : Fin 256) : EReal := avgK (score row proto k c)
def simR (k c : Fin 256) : EReal := avgR (score row proto k c)

/-- The loss of query `k` as the kernel spells it: plain lane sums, the diagonal by a 0/1 factor. -/
def lossK (k : Fin 256) : EReal :=
  Ideal.log ((∑ c : Fin 256, Ideal.exp (gain * simK row proto k c)) + eps)
    - gain * ((∑ c : Fin 256, simK row proto k c * (if k = c then (1 : EReal) else 0)) + margin)

/-- The loss of query `k` as the reference spells it: host sums from zero, the diagonal selected among the
    similarities of all queries against concept `k`. -/
def lossR (k : Fin 256) : EReal :=
  Ideal.log ((zero + ∑ c : Fin 256, Ideal.exp (gain * simR row proto k c)) + eps)
    - gain * ((zero + ∑ j : Fin 256, if j = k then simR row proto j k else zero) + margin)

end Row

section Batch

variable (V : Fin 128 → Fin 256 → Fin 128 → EReal) (L : Fin 128 → Fin 256 → BitVec 32)
  (proto : Fin 256 → Fin 8 → Fin 128 → EReal)

/-- What one batch row adds to the kernel's two accumulators: the labelled losses' sum and the labels' count. -/
def rowTotal (b : Fin 128) : EReal := ∑ k : Fin 256, lossK (V b) proto k * maskW (L b k)
def rowCount (b : Fin 128) : EReal := ∑ k : Fin 256, maskW (L b k)

/-- The kernel's two accumulators after the first `n` batch rows, starting from zero. -/
def accK : ℕ → EReal × EReal
  | 0 => (zero, zero)
  | n + 1 =>
    if h : n < 128 then ((accK n).1 + rowTotal V L proto ⟨n, h⟩, (accK n).2 + rowCount L ⟨n, h⟩) else accK n

/-- The mean of the labelled losses, or their sum when no label is set: from a total and a count. -/
def meanOr (tot cnt : EReal) : EReal :=
  Scalar.select (FloatOps.cmpf (F := Ideal) (φ := .f32) .ogt cnt zero) (Ideal.div tot cnt) tot

/-- The kernel's result. -/
def resultK : EReal := meanOr (accK V L proto 128).1 (accK V L proto 128).2

/-- The reference's result: both sums taken over the whole batch from zero. -/
def resultR : EReal :=
  meanOr (zero + ∑ b : Fin 128, ∑ k : Fin 256, lossR (V b) proto k * maskW (L b k))
    (zero + ∑ b : Fin 128, ∑ k : Fin 256, maskW (L b k))

end Batch

end ProtoLoss

end
-- ==== Proof.KSim.lean ====
/-
  The similarity block of one batch row, read at an index: the quotient of the kernel's two running sums over the
  eight prototype slabs is, at query `k` and concept `c`, the weighted average of the eight scores.
-/
import proofs.«410938_j52493090291884_4_alg».proof.Proof.Steps
import proofs.«410938_j52493090291884_4_alg».proof.Proof.Spec
import Idealize.ShloMosaic.Lib.ValueIdx
import Idealize.ShloMosaic.Lib.Pipeline.Value
import Idealize.ShloMosaic.PureOps.Ideal.Laws

noncomputable section

namespace Cert.KernelIdeal.Steps

open Cert.KernelIdeal Cert.KernelIdeal.Gen Idealize.ShloMosaic Idealize.ShloMosaic.ValueIdx

/-- The queries of the batch row a slab of the query block holds. -/
def rowOf (q : Vec Ideal S1x256x128 .bf16) : Fin 256 → Fin 128 → EReal := fun k d => q (ix3 0 k d)

/-- The prototypes the eight slabs hold: slab `m` is laid out (1, d, c). -/
def protoOf (p : Fin 8 → Vec Ideal S1x128x256 .bf16) : Fin 256 → Fin 8 → Fin 128 → EReal := fun c m d => p m (ix3 0 d c)

/-- The quotient of the two running sums after the eighth slab, as the loss payload forms it from the sums after
    the seventh (`num7`, `den7`) and the eighth product `s7`. -/
def simBlock (num7 den7 s7 : FVec Ideal S256x256 .f32) : FVec Ideal S256x256 .f32 :=
  divf (addf num7 (mulf (exp (mulf (broadcast S256x256 (FloatOps.ofBits (F := Ideal) .f32 0x41A00000#32)) s7)) s7))
    (addf den7 (exp (mulf (broadcast S256x256 (FloatOps.ofBits (F := Ideal) .f32 0x41A00000#32)) s7)))

/-! ## The operand indices of the product's dimension numbers, axis by axis -/

/-- The left operand's row is the result's row. -/
theorem lhs_axis0 (i : S256x256.Idx) (r : dot_S256x128_S128x256_S256x256_1_0_0_1_n_n.contr.Idx) :
    (dot_S256x128_S128x256_S256x256_1_0_0_1_n_n.lhsIdx i r 0).val = (i 0).val := by
  unfold DotDims.lhsIdx
  rw [dif_neg (show ¬(0 : Fin S256x128.rank) ∈ dot_S256x128_S128x256_S256x256_1_0_0_1_n_n.lhsBatch by decide), dif_pos (show (0 : Fin S256x128.rank) ∈ dot_S256x128_S128x256_S256x256_1_0_0_1_n_n.lhsNonContracting by decide)]
  rfl
/-- The left operand's column is the contraction position. -/
theorem lhs_axis1 (i : S256x256.Idx) (r : dot_S256x128_S128x256_S256x256_1_0_0_1_n_n.contr.Idx) :
    (dot_S256x128_S128x256_S256x256_1_0_0_1_n_n.lhsIdx i r 1).val = (r ⟨0, by decide⟩).val :=
  dot_S256x128_S128x256_S256x256_1_0_0_1_n_n.lhsIdx_val_of_single rfl i r
/-- The right operand's row is the contraction position. -/
theorem rhs_axis0 (i : S256x256.Idx) (r : dot_S256x128_S128x256_S256x256_1_0_0_1_n_n.contr.Idx) :
    (dot_S256x128_S128x256_S256x256_1_0_0_1_n_n.rhsIdx i r 0).val = (r ⟨0, by decide⟩).val :=
  dot_S256x128_S128x256_S256x256_1_0_0_1_n_n.rhsIdx_val_of_single rfl i r
/-- The right operand's column is the result's column. -/
theorem rhs_axis1 (i : S256x256.Idx) (r : dot_S256x128_S128x256_S256x256_1_0_0_1_n_n.contr.Idx) :
    (dot_S256x128_S128x256_S256x256_1_0_0_1_n_n.rhsIdx i r 1).val = (i 1).val := by
  unfold DotDims.rhsIdx
  rw [dif_neg (show ¬(1 : Fin S128x256.rank) ∈ dot_S256x128_S128x256_S256x256_1_0_0_1_n_n.rhsBatch by decide), dif_pos (show (1 : Fin S128x256.rank) ∈ dot_S256x128_S128x256_S256x256_1_0_0_1_n_n.rhsNonContracting by decide)]
  rfl

/-- A [256,128] by [128,256] product into the zero block, at row `k` and column `c`: the sum over the
    contraction position `d` of the left operand at (k, d) times the right at (d, c). -/
theorem prod_apply (x : FVec Ideal S256x128 .bf16) (y : FVec Ideal S128x256 .bf16) (k c : Fin 256) :
    matmul dot_S256x128_S128x256_S256x256_1_0_0_1_n_n none x y (constant (F := Ideal) S256x256 .f32 0x00000000#32) (ix2 k c)
      = ∑ d : Fin 128, x (ix2 k d) * y (ix2 d c) := by
  simp only [matmul]
  rw [Ideal.matmul_constant_zero_apply, ← Equiv.sum_comp (contrEquiv1 dot_S256x128_S128x256_S256x256_1_0_0_1_n_n 128 rfl rfl).symm]
  refine Finset.sum_congr rfl fun d _ => ?_
  have hk := contrEquiv1_symm_val dot_S256x128_S128x256_S256x256_1_0_0_1_n_n 128 rfl rfl d
  have el : dot_S256x128_S128x256_S256x256_1_0_0_1_n_n.lhsIdx (ix2 k c) ((contrEquiv1 dot_S256x128_S128x256_S256x256_1_0_0_1_n_n 128 rfl rfl).symm d) = ix2 k d := funext fun a => Fin.ext (by
    match a with
    | ⟨0, _⟩ => exact lhs_axis0 _ _
    | ⟨1, _⟩ => exact (lhs_axis1 _ _).trans hk)
  have er : dot_S256x128_S128x256_S256x256_1_0_0_1_n_n.rhsIdx (ix2 k c) ((contrEquiv1 dot_S256x128_S128x256_S256x256_1_0_0_1_n_n 128 rfl rfl).symm d) = ix2 d c := funext fun a => Fin.ext (by
    match a with
    | ⟨0, _⟩ => exact (rhs_axis0 _ _).trans hk
    | ⟨1, _⟩ => exact rhs_axis1 _ _)
  rw [el, er]

/-- The query slab with its unit axis dropped, at (k, d): the slab at (0, k, d). -/
theorem pay6_apply (q : FVec Ideal S1x256x128 .bf16) (k : Fin 256) (d : Fin 128) :
    k0_pay6 q (ix2 k d) = q (ix3 0 k d) := by
  unfold k0_pay6
  exact shapeCast_apply q shapeCasts_S1x256x128_S256x128 (ix2 k d) (ix3 0 k d) (by
    rw [Shape.rowMajor_val_three, Shape.rowMajor_val_two]
    show (0 * 256 + k.val) * 128 + d.val = k.val * 128 + d.val
    rw [Nat.zero_mul, Nat.zero_add])

/-- A prototype slab with its unit axis dropped, at (d, c): the slab at (0, d, c). -/
theorem slab_apply (pm : FVec Ideal S1x128x256 .bf16) (d : Fin 128) (c : Fin 256) :
    shapeCast S128x256 pm shapeCasts_S1x128x256_S128x256 (ix2 d c) = pm (ix3 0 d c) :=
  shapeCast_apply pm shapeCasts_S1x128x256_S128x256 (ix2 d c) (ix3 0 d c) (by
    rw [Shape.rowMajor_val_three, Shape.rowMajor_val_two]
    show (0 * 128 + d.val) * 256 + c.val = d.val * 256 + c.val
    rw [Nat.zero_mul, Nat.zero_add])

/-- One score: the product of the query slab and a prototype slab, at query `k` and concept `c`, is the inner
    product of query `k` with the slab's prototype of concept `c`. -/
theorem score_apply (q : FVec Ideal S1x256x128 .bf16) (pm : FVec Ideal S1x128x256 .bf16) (k c : Fin 256) :
    matmul dot_S256x128_S128x256_S256x256_1_0_0_1_n_n none (k0_pay6 q) (shapeCast S128x256 pm shapeCasts_S1x128x256_S128x256)
        (constant (F := Ideal) S256x256 .f32 0x00000000#32) (ix2 k c)
      = ∑ d : Fin 128, q (ix3 0 k d) * pm (ix3 0 d c) := by
  refine (prod_apply (k0_pay6 q) (shapeCast S128x256 pm shapeCasts_S1x128x256_S128x256) k c).trans ?_
  refine Finset.sum_congr rfl fun d _ => ?_
  rw [pay6_apply, slab_apply]

/-- Each of the eight products of the row is such a score. -/
theorem pay7_apply (q : Vec Ideal S1x256x128 .bf16) (pm : Vec Ideal S1x128x256 .bf16) (k c : Fin 256) :
    k0_pay7 q pm (ix2 k c) = ∑ d : Fin 128, q (ix3 0 k d) * pm (ix3 0 d c) := score_apply q pm k c
theorem pay9_apply (q : Vec Ideal S1x256x128 .bf16) (pm : Vec Ideal S1x128x256 .bf16) (k c : Fin 256) :
    k0_pay9 q pm (ix2 k c) = ∑ d : Fin 128, q (ix3 0 k d) * pm (ix3 0 d c) := score_apply q pm k c
theorem pay11_apply (q : Vec Ideal S1x256x128 .bf16) (pm : Vec Ideal S1x128x256 .bf16) (k c : Fin 256) :
    k0_pay11 q pm (ix2 k c) = ∑ d : Fin 128, q (ix3 0 k d) * pm (ix3 0 d c) := score_apply q pm k c
theorem pay15_apply (q : Vec Ideal S1x256x128 .bf16) (pm : Vec Ideal S1x128x256 .bf16) (k c : Fin 256) :
    k0_pay15 (k0_pay6 q) pm (ix2 k c) = ∑ d : Fin 128, q (ix3 0 k d) * pm (ix3 0 d c) := score_apply q pm k c
theorem pay17_apply (q : Vec Ideal S1x256x128 .bf16) (pm : Vec Ideal S1x128x256 .bf16) (k c : Fin 256) :
    k0_pay17 (k0_pay6 q) pm (ix2 k c) = ∑ d : Fin 128, q (ix3 0 k d) * pm (ix3 0 d c) := score_apply q pm k c
theorem pay19_apply (q : Vec Ideal S1x256x128 .bf16) (pm : Vec Ideal S1x128x256 .bf16) (k c : Fin 256) :
    k0_pay19 (k0_pay6 q) pm (ix2 k c) = ∑ d : Fin 128, q (ix3 0 k d) * pm (ix3 0 d c) := score_apply q pm k c
theorem pay21_apply (q : Vec Ideal S1x256x128 .bf16) (pm : Vec Ideal S1x128x256 .bf16) (k c : Fin 256) :
    k0_pay21 (k0_pay6 q) pm (ix2 k c) = ∑ d : Fin 128, q (ix3 0 k d) * pm (ix3 0 d c) := score_apply q pm k c
theorem pay25_apply (q : Vec Ideal S1x256x128 .bf16) (pm : Vec Ideal S1x128x256 .bf16) (k c : Fin 256) :
    k0_pay25 (k0_pay6 q) pm (ix2 k c) = ∑ d : Fin 128, q (ix3 0 k d) * pm (ix3 0 d c) := score_apply q pm k c

/-- At query `k` and concept `c` the quotient is the weighted average of the eight scores. -/
theorem simBlock_apply (q : Vec Ideal S1x256x128 .bf16) (p : Fin 8 → Vec Ideal S1x128x256 .bf16) (k c : Fin 256) :
    simBlock (k0_pay23 (k0_pay6 q) (k0_pay13 q (p 0) (p 1) (p 2)) (p 3) (p 4) (p 5) (p 6))
        (k0_pay24 (k0_pay6 q) (k0_pay14 q (p 0) (p 1) (p 2)) (p 3) (p 4) (p 5) (p 6))
        (k0_pay25 (k0_pay6 q) (p 7)) (ix2 k c)
      = ProtoLoss.simK (rowOf q) (protoOf p) k c := by
  simp only [simBlock, k0_pay23, k0_pay24, k0_pay13, k0_pay14, k0_pay8, k0_pay10, k0_pay12, k0_pay16, k0_pay18, k0_pay20,
    k0_pay22, divf, addf, mulf, exp, broadcast]
  rw [pay7_apply, pay9_apply, pay11_apply, pay15_apply, pay17_apply, pay19_apply, pay21_apply, pay25_apply]
  rfl

end Cert.KernelIdeal.Steps

end
-- ==== Proof.LibKeepdims.lean ====
/-
  The column forms a `jnp.sum(…, axis=1, keepdims=True)` kernel meets, read at an index, for any extents:
  a vector `[a]` viewed as a column `[a, 1]`; a column `[a, 1]` broadcast along its rows to `[a, b]`; and, at the
  extended reals, a lane sum of an `[a, b]` array over its second axis as the plain sum over the row.
-/
import Idealize.ShloMosaic.Lib.Pipeline.Value
import Idealize.ShloMosaic.Lib.ValueIdx
import Idealize.ShloMosaic.PureOps.Ideal.Laws

noncomputable section

namespace Idealize.ShloMosaic.Keepdims

open Idealize.ShloMosaic Idealize.ShloMosaic.ValueIdx

variable {α : Type}

/-- An `[a]` array cast to the column `[a, 1]` reads, at `(r, u)`, the operand at `r`, whatever the unit coordinate. -/
theorem shapeCast_a_a1_apply {a : ℕ} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast to `[a, b]` reads, at `(r, c)`, the column at row `r`. -/
theorem broadcastTo_a1_ab_apply {a b : ℕ} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

/-- At the extended reals a lane sum of an `[a, b]` array over its second axis, from the zero accumulator, reads at row
    `r` as the sum of the row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (r : Fin a) :
    multiReduction .add [1] ⟨1, ![a]⟩ src acc h hφ hacc (ix1 r) = ∑ k : Fin b, src (ix2 r k) := by
  refine (Ideal.multiReduction_add_single src acc h hφ hacc (ix1 r)).trans ?_
  refine Finset.sum_congr rfl fun k _ => ?_
  refine congrArg src (funext fun ax => Fin.ext ?_)
  rw [Shape.Reduces.lift_val]
  match ax with
  | ⟨0, _⟩ => rfl
  | ⟨1, _⟩ => rfl

end Idealize.ShloMosaic.Keepdims

end
-- ==== Proof.KRow.lean ====
/-
  What one trip adds to the two accumulators, and what the last grid point stores, read at an index.
-/
import proofs.«410938_j52493090291884_4_alg».proof.Proof.KSim
import proofs.«410938_j52493090291884_4_alg».proof.Proof.LibKeepdims
import Idealize.ShloMosaic.Lib.ValueLayout

noncomputable section

namespace Cert.KernelIdeal.Steps

open Cert.KernelIdeal Cert.KernelIdeal.Gen Idealize.ShloMosaic Idealize.ShloMosaic.ValueIdx

/-- The labels of the batch row a slab of the label block holds. -/
def labOf (lab : Vec Ideal S1x256 .i32) : Fin 256 → BitVec 32 := fun k => lab (ix2 0 k)

/-! ## The 0/1 values -/

/-- A one-bit word widened to 32 bits and read as a signed integer is 1 for the bit 1 and 0 for the bit 0. -/
theorem sitofp_bit (b : BitVec 1) :
    FloatOps.sitofp (F := Ideal) .f32 (b.setWidth 32) = if b = 1#1 then (1 : EReal) else 0 := by
  show (((b.setWidth 32).toInt : ℝ) : EReal) = _
  rcases BitVec.eq_zero_or_eq_one b with h | h <;> subst h
  · rw [if_neg (by decide), show ((0#1 : BitVec 1).setWidth 32).toInt = 0 from by decide]; simp
  · rw [if_pos rfl, show ((1#1 : BitVec 1).setWidth 32).toInt = 1 from by decide]; simp

/-- The widened, converted bit of an equality test of two words is 1 where they are equal, else 0. -/
theorem sitofp_cmpi_eq (a b : BitVec 32) :
    FloatOps.sitofp (F := Ideal) .f32 ((IntOp.cmpi .eq a b).setWidth 32) = if a = b then (1 : EReal) else 0 := by
  rw [sitofp_bit]
  by_cases h : a = b
  · have e : (a == b) = true := by simp [h]
    rw [if_pos h, if_pos]; unfold IntOp.cmpi; rw [e]; rfl
  · have e : (a == b) = false := by simp [h]
    rw [if_neg h, if_neg]; unfold IntOp.cmpi; rw [e]; show ¬ BitVec.ofBool false = 1#1; decide

/-- Two row or column numbers below 256 are equal as 32-bit words exactly when they are equal. -/
theorem ofNat_eq_iff (k c : Fin 256) : BitVec.ofNat 32 k.val = BitVec.ofNat 32 c.val ↔ k = c := by
  constructor
  · intro h
    have h' := congrArg BitVec.toNat h
    rw [BitVec.toNat_ofNat, BitVec.toNat_ofNat] at h'
    have hk := k.isLt
    have hc := c.isLt
    exact Fin.ext (by omega)
  · intro h; rw [h]

/-- The diagonal matrix: 1 where the query's number is the concept's, else 0. -/
theorem pay3_apply (k c : Fin 256) : k0_pay3 (F := Ideal) (ix2 k c) = if k = c then (1 : EReal) else 0 := by
  unfold k0_pay3
  rw [sitofp_apply, extui_apply]
  show FloatOps.sitofp FTy.f32 ((IntOp.cmpi .eq (iota .tc S256x256 32 [0] iota_S256x256_d0_w32 (ix2 k c))
      (iota .tc S256x256 32 [1] iota_S256x256_d1_w32 (ix2 k c))).setWidth 32) = _
  rw [iota_single_apply, iota_single_apply, sitofp_cmpi_eq]
  show (if BitVec.ofNat 32 k.val = BitVec.ofNat 32 c.val then (1 : EReal) else 0) = _
  by_cases h : k = c
  · rw [if_pos h, if_pos ((ofNat_eq_iff k c).mpr h)]
  · rw [if_neg h, if_neg fun e => h ((ofNat_eq_iff k c).mp e)]

/-- The label mask of a batch row: 1 where the row's label word is 1, else 0. -/
theorem pay26_apply (lab : Vec Ideal S1x256 .i32) (k : Fin 256) :
    k0_pay26 lab (ix1 k) = ProtoLoss.maskW (labOf lab k) := by
  unfold k0_pay26
  rw [sitofp_apply, extui_apply]
  show FloatOps.sitofp FTy.f32 ((IntOp.cmpi .eq (shapeCast S256 lab shapeCasts_S1x256_S256 (ix1 k)) 1#32).setWidth 32) = _
  rw [shapeCast_1a_a_apply, sitofp_cmpi_eq]
  rfl

/-- The label mask laid out over eight equal rows. -/
theorem pay27_apply (lab : Vec Ideal S1x256 .i32) (r : Fin 8) (k : Fin 256) :
    k0_pay27 lab (ix2 r k) = ProtoLoss.maskW (labOf lab k) := by
  unfold k0_pay27
  rw [broadcastTo_1b_ab_apply, shapeCast_self, shapeCast_a_1a_apply, pay26_apply]

/-! ## The labelled-loss payload over any similarity sums -/

/-- The labelled-loss payload at an index, over any similarity sums and any diagonal matrix: the lane sums read as plain
    sums over the concepts, the label mask as its 0/1 value, the eight rows as eight copies of the row total. -/
theorem pay28_apply (v7 v80 v81 v84 : FVec Ideal S256x256 .f32) (lab : Vec Ideal S1x256 .i32) (acc : Vec Ideal S8x1 .f32)
    (r : Fin 8) :
    k0_pay28 v7 v80 v81 v84 (FloatOps.ofBits .f32 0x41A00000#32) lab acc (ix2 r 0)
      = acc (ix2 r 0) + ∑ k : Fin 256,
          (Ideal.log ((∑ c : Fin 256, Ideal.exp (ProtoLoss.gain * simBlock v80 v81 v84 (ix2 k c))) + ProtoLoss.eps)
            - ProtoLoss.gain * ((∑ c : Fin 256, simBlock v80 v81 v84 (ix2 k c) * v7 (ix2 k c)) + ProtoLoss.margin))
          * ProtoLoss.maskW (labOf lab k) := by
  unfold k0_pay28
  rw [shapeCast_self, addf_apply, Keepdims.shapeCast_a_a1_apply]
  refine congrArg (acc (ix2 r 0) + ·) ?_
  refine (Keepdims.laneSum_apply _ _ _ _ _ r).trans ?_
  refine Finset.sum_congr rfl fun k _ => ?_
  rw [broadcastTo_1b_ab_apply, shapeCast_self, shapeCast_a_1a_apply, mulf_apply, pay26_apply]
  refine congrArg (· * ProtoLoss.maskW (labOf lab k)) ?_
  show Ideal.log (multiReduction (F := Ideal) (φ := .f32) .add [1] S256 _ _ _ _ _ (ix1 k) + ProtoLoss.eps)
      - ProtoLoss.gain * (multiReduction (F := Ideal) (φ := .f32) .add [1] S256 _ _ _ _ _ (ix1 k) + ProtoLoss.margin) = _
  refine congrArg₂ (fun a b => Ideal.log (a + ProtoLoss.eps) - ProtoLoss.gain * (b + ProtoLoss.margin)) ?_ ?_
  · exact (Keepdims.laneSum_apply _ _ _ _ _ k).trans (Finset.sum_congr rfl fun c _ => rfl)
  · exact (Keepdims.laneSum_apply _ _ _ _ _ k).trans (Finset.sum_congr rfl fun c _ => rfl)

/-! ## The three steps and the two starting values -/

/-- Every one of the eight rows of the labelled-loss accumulator grows by the row's labelled losses. -/
theorem totalStep_apply (q : Vec Ideal S1x256x128 .bf16) (p : Fin 8 → Vec Ideal S1x128x256 .bf16) (lab : Vec Ideal S1x256 .i32)
    (acc : Vec Ideal S8x1 .f32) (r : Fin 8) :
    totalStep q p lab acc (ix2 r 0)
      = acc (ix2 r 0) + ∑ k : Fin 256, ProtoLoss.lossK (rowOf q) (protoOf p) k * ProtoLoss.maskW (labOf lab k) := by
  unfold totalStep
  rw [pay28_apply]
  refine congrArg (acc (ix2 r 0) + ·) ?_
  refine Finset.sum_congr rfl fun k _ => ?_
  refine congrArg (· * ProtoLoss.maskW (labOf lab k)) ?_
  unfold ProtoLoss.lossK
  refine congrArg₂ (fun a b => Ideal.log (a + ProtoLoss.eps) - ProtoLoss.gain * (b + ProtoLoss.margin)) ?_ ?_
  · exact Finset.sum_congr rfl fun c _ => by rw [simBlock_apply]
  · exact Finset.sum_congr rfl fun c _ => by rw [simBlock_apply, pay3_apply]

/-- Every one of the eight rows of the count accumulator grows by the number of labels that are 1. -/
theorem countStep_apply (lab : Vec Ideal S1x256 .i32) (acc : Vec Ideal S8x1 .f32) (r : Fin 8) :
    countStep lab acc (ix2 r 0) = acc (ix2 r 0) + ∑ k : Fin 256, ProtoLoss.maskW (labOf lab k) := by
  unfold countStep k0_pay4
  rw [shapeCast_self, addf_apply, Keepdims.shapeCast_a_a1_apply]
  refine congrArg (acc (ix2 r 0) + ·) ?_
  refine (Keepdims.laneSum_apply _ _ _ _ _ r).trans ?_
  exact Finset.sum_congr rfl fun k _ => pay27_apply lab r k

/-- The output block holds, in row `r` and every lane, the mean formed from row `r` of the two accumulators. -/
theorem finish_apply (tot cnt : Vec Ideal S8x1 .f32) (r : Fin 8) (j : Fin 128) :
    finish tot cnt (ix2 r j) = ProtoLoss.meanOr (tot (ix2 r 0)) (cnt (ix2 r 0)) := by
  unfold finish k0_pay5
  refine (Keepdims.broadcastTo_a1_ab_apply _ _ r j).trans ?_
  rw [shapeCast_self]
  rfl

/-- Both accumulators start from zero. -/
theorem pay1_apply (r : Fin 8) : k0_pay1 (F := Ideal) (ix2 r 0) = ProtoLoss.zero := by
  unfold k0_pay1
  rw [shapeCast_self]
  rfl
theorem pay2_apply (r : Fin 8) : k0_pay2 (F := Ideal) (ix2 r 0) = ProtoLoss.zero := by
  unfold k0_pay2
  rw [shapeCast_self]
  rfl

end Cert.KernelIdeal.Steps

end
-- ==== Proof.KBlocks.lean ====
/-
  The slabs a trip loads, read off the arrays the region finds: trip `j` of grid point `t` loads batch row
  `16 t + j` of the query array and of the label array, and the eight slabs of the prototype array.
-/
import proofs.«410938_j52493090291884_4_alg».proof.Proof.KLoop
import Idealize.ShloMosaic.Lib.ValueIdx
import Idealize.ShloMosaic.Lib.Pipeline.Value

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The loop makes sixteen trips. -/
theorem trips_eq : k0_t1_loop.trips = 16 := by decide

/-! ## A trip's load off a whole staging buffer -/

/-- A trip's query slab, loaded off a whole buffer that reads `X`, is row `j` of `X`. -/
theorem qSlab_unread (arg1 : Memref sig .tc .vmem S16x256x128 .bf16) (h : arg1.IsWhole) (X : S16x256x128.Idx → Elt Ideal .bf16)
    (j : Fin k0_t1_loop.trips) (y : S16x256x128.Idx) (k : Fin 256) (d : Fin 128)
    (h0 : (y 0).val = j.val) (h1 : (y 1).val = k.val) (h2 : (y 2).val = d.val) :
    qSlab (F := Ideal) arg1 (h.unread X) j (ix3 0 k d) = X y := by
  unfold qSlab
  rw [View.readAt_eq_ld, Memref.IsWhole.read_unread]
  show X _ = X y
  congr 1
  funext a; apply Fin.ext
  match a with
  | ⟨0, _⟩ =>
    show (k0_off1 j) 0 + 1 * (0 : Fin 1).val = (y 0).val
    rw [k0_off1_eq j, h0]; simp
  | ⟨1, _⟩ =>
    show (k0_off1 j) 1 + 1 * k.val = (y 1).val
    rw [k0_off1_eq j, h1]; simp
  | ⟨2, _⟩ =>
    show (k0_off1 j) 2 + 1 * d.val = (y 2).val
    rw [k0_off1_eq j, h2]; simp

/-- A trip's label slab, loaded off a whole buffer that reads `X`, is row `j` of `X`. -/
theorem labSlab_unread (arg3 : Memref sig .tc .vmem S16x256 .i32) (h : arg3.IsWhole) (X : S16x256.Idx → Elt Ideal .i32)
    (j : Fin k0_t1_loop.trips) (y : S16x256.Idx) (k : Fin 256)
    (h0 : (y 0).val = j.val) (h1 : (y 1).val = k.val) :
    labSlab (F := Ideal) arg3 (h.unread X) j (ix2 0 k) = X y := by
  unfold labSlab
  rw [View.readAt_eq_ld, Memref.IsWhole.read_unread]
  show X _ = X y
  congr 1
  funext a; apply Fin.ext
  match a with
  | ⟨0, _⟩ =>
    show (k0_off2 j) 0 + 1 * (0 : Fin 1).val = (y 0).val
    rw [k0_off2_eq j, h0]; simp
  | ⟨1, _⟩ =>
    show (k0_off2 j) 1 + 1 * k.val = (y 1).val
    rw [k0_off2_eq j, h1]; simp

/-- The eight prototype slabs, loaded off a whole buffer that reads `X`, are the eight leading rows of `X`. -/
theorem pSlabs_unread (arg2 : Memref sig .tc .vmem S8x128x256 .bf16) (h : arg2.IsWhole) (X : S8x128x256.Idx → Elt Ideal .bf16)
    (mm : Fin 8) (d : Fin 128) (cc : Fin 256) :
    pSlabs (F := Ideal) arg2 (h.unread X) mm (ix3 0 d cc) = X (ix3 mm d cc) := by
  unfold pSlabs
  simp only [View.readAt_eq_ld, Memref.IsWhole.read_unread]
  have e : ∀ (o : Fin 8) (inb : ∀ a, (![o.val, 0, 0] : Fin 3 → Nat) a + S1x128x256.size a ≤ S8x128x256.size a),
      View.ld X (Rect.unit (s := S8x128x256) ![o.val, 0, 0] S1x128x256.size inb) (ix3 0 d cc) = X (ix3 o d cc) := by
    intro o inb
    show X _ = X _
    congr 1
    funext a; apply Fin.ext
    match a with
    | ⟨0, _⟩ => show (![o.val, 0, 0] : Fin 3 → Nat) 0 + 1 * (0 : Fin 1).val = o.val; simp
    | ⟨1, _⟩ => show (![o.val, 0, 0] : Fin 3 → Nat) 1 + 1 * d.val = d.val; simp
    | ⟨2, _⟩ => show (![o.val, 0, 0] : Fin 3 → Nat) 2 + 1 * cc.val = cc.val; simp
  match mm with
  | ⟨0, _⟩ => exact e 0 _
  | ⟨1, _⟩ => exact e 1 _
  | ⟨2, _⟩ => exact e 2 _
  | ⟨3, _⟩ => exact e 3 _
  | ⟨4, _⟩ => exact e 4 _
  | ⟨5, _⟩ => exact e 5 _
  | ⟨6, _⟩ => exact e 6 _
  | ⟨7, _⟩ => exact e 7 _

/-! ## A window's block, read off its array -/

/-- The windows' index maps over the grid: the query and label windows move with the point along the batch axis, the
    prototype window stays. -/
theorem idx_facts : ∀ t : Fin cfg0.N,
    win0_0.index t (0 : Fin 3) = t.val ∧ win0_0.index t (1 : Fin 3) = 0 ∧ win0_0.index t (2 : Fin 3) = 0
    ∧ win0_1.index t (0 : Fin 3) = 0 ∧ win0_1.index t (1 : Fin 3) = 0 ∧ win0_1.index t (2 : Fin 3) = 0
    ∧ win0_2.index t (0 : Fin 2) = t.val ∧ win0_2.index t (1 : Fin 2) = 0 :=
  (by decide +kernel : ∀ t : Fin grid0.N, _)

/-- The query block of point `t` at `y` is the query array at batch row `16 t + y₀`. -/
theorem iblk0_apply (c : Dev nD) (t : Fin cfg0.N) (y : S16x256x128.Idx) (i : S128x256x128.Idx)
    (h0 : (i 0).val = 16 * t.val + (y 0).val) (h1 : (i 1).val = (y 1).val) (h2 : (i 2).val = (y 2).val) :
    iblk m c 0 t y = (V m c main_v0 : S128x256x128.Idx → EReal) i := by
  unfold iblk
  rw [View.read_apply]
  show (V m c main_v0 : S128x256x128.Idx → EReal) (((cfg0.win 0).blk t).view.emb y) = _
  congr 1
  funext a; apply Fin.ext
  obtain ⟨e0, e1, e2, -⟩ := idx_facts t
  match a with
  | ⟨0, _⟩ => show win0_0.index t (0 : Fin 3) * 16 + 1 * (y 0).val = (i 0).val; omega
  | ⟨1, _⟩ => show win0_0.index t (1 : Fin 3) * 256 + 1 * (y 1).val = (i 1).val; omega
  | ⟨2, _⟩ => show win0_0.index t (2 : Fin 3) * 128 + 1 * (y 2).val = (i 2).val; omega

/-- The prototype block of every point is the prototype array. -/
theorem iblk1_apply (c : Dev nD) (t : Fin cfg0.N) (y : S8x128x256.Idx) :
    iblk m c 1 t y = (V m c main_v2 : S8x128x256.Idx → EReal) y := by
  unfold iblk
  rw [View.read_apply]
  show (V m c main_v2 : S8x128x256.Idx → EReal) (((cfg0.win 1).blk t).view.emb y) = _
  congr 1
  funext a; apply Fin.ext
  obtain ⟨-, -, -, e0, e1, e2, -⟩ := idx_facts t
  match a with
  | ⟨0, _⟩ => show win0_1.index t (0 : Fin 3) * 8 + 1 * (y 0).val = (y 0).val; omega
  | ⟨1, _⟩ => show win0_1.index t (1 : Fin 3) * 128 + 1 * (y 1).val = (y 1).val; omega
  | ⟨2, _⟩ => show win0_1.index t (2 : Fin 3) * 256 + 1 * (y 2).val = (y 2).val; omega

/-- The label block of point `t` at `y` is the label array at batch row `16 t + y₀`. -/
theorem iblk2_apply (c : Dev nD) (t : Fin cfg0.N) (y : S16x256.Idx) (i : S128x256.Idx)
    (h0 : (i 0).val = 16 * t.val + (y 0).val) (h1 : (i 1).val = (y 1).val) :
    iblk m c 2 t y = (V m c main_arg1 : S128x256.Idx → BitVec 32) i := by
  unfold iblk
  rw [View.read_apply]
  show (V m c main_arg1 : S128x256.Idx → BitVec 32) (((cfg0.win 2).blk t).view.emb y) = _
  congr 1
  funext a; apply Fin.ext
  obtain ⟨-, -, -, -, -, -, e0, e1⟩ := idx_facts t
  match a with
  | ⟨0, _⟩ => show win0_2.index t (0 : Fin 2) * 16 + 1 * (y 0).val = (i 0).val; omega
  | ⟨1, _⟩ => show win0_2.index t (1 : Fin 2) * 256 + 1 * (y 1).val = (i 1).val; omega

/-- Trip `j` of point `t` loads batch row `16 t + j` of the query array. -/
theorem qSlab_block (c : Dev nD) (t : Fin cfg0.N) (j : Fin k0_t1_loop.trips) (hb : 16 * t.val + j.val < 128) (k : Fin 256) (d : Fin 128) :
    qSlab (F := Ideal) (ms0_0 t) ((hs0_0 t).unread (iblk m c 0 t)) j (ix3 0 k d)
      = (V m c main_v0 : S128x256x128.Idx → EReal) (ix3 ⟨16 * t.val + j.val, hb⟩ k d) := by
  have hj : j.val < 16 := by have h := trips_eq; have := j.isLt; omega
  exact (qSlab_unread (ms0_0 t) (hs0_0 t) (iblk m c 0 t) j (ix3 ⟨j.val, hj⟩ k d) k d rfl rfl rfl).trans
    (iblk0_apply m c t _ _ rfl rfl rfl)

/-- Every trip of every point loads the eight slabs of the prototype array. -/
theorem pSlabs_block (c : Dev nD) (t : Fin cfg0.N) (mm : Fin 8) (d : Fin 128) (cc : Fin 256) :
    pSlabs (F := Ideal) (ms0_1 t) ((hs0_1 t).unread (iblk m c 1 t)) mm (ix3 0 d cc)
      = (V m c main_v2 : S8x128x256.Idx → EReal) (ix3 mm d cc) := by
  exact (pSlabs_unread (ms0_1 t) (hs0_1 t) (iblk m c 1 t) mm d cc).trans (iblk1_apply m c t _)

/-- Trip `j` of point `t` loads batch row `16 t + j` of the label array. -/
theorem labSlab_block (c : Dev nD) (t : Fin cfg0.N) (j : Fin k0_t1_loop.trips) (hb : 16 * t.val + j.val < 128) (k : Fin 256) :
    labSlab (F := Ideal) (ms0_2 t) ((hs0_2 t).unread (iblk m c 2 t)) j (ix2 0 k)
      = (V m c main_arg1 : S128x256.Idx → BitVec 32) (ix2 ⟨16 * t.val + j.val, hb⟩ k) := by
  have hj : j.val < 16 := by have h := trips_eq; have := j.isLt; omega
  exact (labSlab_unread (ms0_2 t) (hs0_2 t) (iblk m c 2 t) j (ix2 ⟨j.val, hj⟩ k) k rfl rfl).trans
    (iblk2_apply m c t _ _ rfl rfl)

end Cert.KernelIdeal.Steps

end
-- ==== Proof.KHost.lean ====
/-
  The host operations around the region: before it, the query array is the first argument (a change of float
  format is the identity on the extended reals) and the prototype array is the third argument transposed to
  (prototype, coordinate, concept); after it, the result is entry (0, 0) of the array the region wrote.
-/
import proofs.«410938_j52493090291884_4_alg».proof.Proof.Gen.KernelIdeal.Frame
import Idealize.ShloMosaic.Lib.ValueIdx
import Idealize.ShloMosaic.Lib.Pipeline.Value
import Idealize.ShloMosaic.Lib.StableHlo.Run

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The query array the region finds is the first argument. -/
theorem V_queries (c : Dev nD) (i : S128x256x128.Idx) :
    (V m c main_v0 : S128x256x128.Idx → EReal) i = (m ((c : Thread nD τ).loc main_arg0) : S128x256x128.Idx → EReal) i := by
  show StableHlo.after hostOps0 (fun b => m (c, b)) (Proc.devRef .tc main_v0) i = _
  after_results
  -- the change of float format is the identity on the extended reals
  rfl

/-- The prototype array the region finds is the third argument, transposed. -/
theorem V_protos (c : Dev nD) (mm : Fin 8) (d : Fin 128) (cc : Fin 256) :
    (V m c main_v2 : S8x128x256.Idx → EReal) (ix3 mm d cc)
      = (m ((c : Thread nD τ).loc main_arg2) : S256x8x128.Idx → EReal) (ix3 cc mm d) := by
  show StableHlo.after hostOps0 (fun b => m (c, b)) (Proc.devRef .tc main_v2) (ix3 mm d cc) = _
  after_results
  -- the change of float format is the identity; what is left is the transpose read at (mm, d, cc)
  show transpose S8x128x256 [1, 2, 0] (m (c, Proc.devRef .tc main_arg2)) transposes_S256x8x128_S8x128x256_1_2_0 (ix3 mm d cc) = _
  -- result axes 0, 1, 2 are source axes 1, 2, 0: the source index is (cc, mm, d)
  exact transpose_apply _ _ _ (ix3 mm d cc) (ix3 cc mm d)
    (fun b => by match b with | ⟨0, _⟩ => rfl | ⟨1, _⟩ => rfl | ⟨2, _⟩ => rfl)

/-- The label array the region finds is the second argument. -/
theorem V_labels (c : Dev nD) : V m c main_arg1 = m ((c : Thread nD τ).loc main_arg1) := V_main_arg1 m c

/-- After the region the result is entry (0, 0) of the output array as the region leaves it. -/
theorem tail_value (c : Dev nD) (i : S_.Idx) :
    (Pipeline.afterTail₀ cfgs (dats m) 0 (V0 m) [hostOps1] c main_v5 : S_.Idx → EReal) i
      = ((dats m 0 c).arrAt 3 cfg0.N : S8x128.Idx → EReal) (ix2 0 0) := by
  unfold Pipeline.afterTail₀
  show StableHlo.after hostOps1 _ (Proc.devRef .tc main_v5) i = _
  after_results
  -- the rank-0 reshape of the 1×1 slice at offset (0, 0) of the output array
  show shapeCast S_ (extractStridedSlice S1x1 ![0, 0]
      (Pipeline.withArrays (cfgs 0).spec c (V0 m c) (fun w => (dats m 0 c).arrAt w (cfgs 0).N) (Proc.devRef .tc main_v3))
      slices_S8x128_S1x1_0_0) shapeCasts_S1x1_S_ i = _
  obtain rfl : i = ix0 := eq_ix0 i
  -- the one rank-0 index and the one index of the 1×1 shape both sit at row-major position 0
  rw [shapeCast_apply _ shapeCasts_S1x1_S_ ix0 (ix2 (0 : Fin 1) (0 : Fin 1)) rfl]
  -- the slice starts at offset (0, 0): its entry (0, 0) is the array's entry (0, 0)
  rw [extractStridedSlice_apply ![0, 0] _ slices_S8x128_S1x1_0_0 (ix2 (0 : Fin 1) (0 : Fin 1)) (ix2 (0 : Fin 8) (0 : Fin 128))
    (fun a => by match a with | ⟨0, _⟩ => rfl | ⟨1, _⟩ => rfl)]
  -- the array read is the region's fourth array as the region leaves it
  exact congrFun (Pipeline.withArrays_arr spec0 launch0.win.arr_inj c (V0 m c) (fun w => (dats m 0 c).arrAt w cfg0.N) 3) (ix2 0 0)

end Cert.KernelIdeal.Steps

end
-- ==== Proof.KGrid.lean ====
/-
  The grid, read as values. Point `t` runs batch rows `16 t … 16 t + 15` through the two steps, so after point `t`
  every one of the eight rows of the two accumulators holds the running total and the running count of the first
  `16 (t + 1)` batch rows, and the block the last point stores holds the mean formed from all 128 rows.
-/
import proofs.«410938_j52493090291884_4_alg».proof.Proof.KCases
import proofs.«410938_j52493090291884_4_alg».proof.Proof.KRow
import proofs.«410938_j52493090291884_4_alg».proof.Proof.KBlocks
import proofs.«410938_j52493090291884_4_alg».proof.Proof.KHost

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The three argument arrays as plain index functions: queries (batch row, query, coordinate), prototypes
    (concept, prototype, coordinate), labels (batch row, query). -/
def queries (c : Dev nD) : Fin 128 → Fin 256 → Fin 128 → EReal :=
  fun b k d => (m ((c : Thread nD τ).loc main_arg0) : S128x256x128.Idx → EReal) (ix3 b k d)
def protos (c : Dev nD) : Fin 256 → Fin 8 → Fin 128 → EReal :=
  fun cc mm d => (m ((c : Thread nD τ).loc main_arg2) : S256x8x128.Idx → EReal) (ix3 cc mm d)
def labels (c : Dev nD) : Fin 128 → Fin 256 → BitVec 32 :=
  fun b k => (m ((c : Thread nD τ).loc main_arg1) : S128x256.Idx → BitVec 32) (ix2 b k)

/-- A grid point's index is below eight. -/
theorem point_lt (t : Fin cfg0.N) : t.val < 8 := lt_of_lt_of_eq t.isLt (show cfg0.N = 8 from N_0)

/-- What trip `n` of point `t` loads is batch row `16 t + n` of the three arguments. -/
theorem row_of_trip (c : Dev nD) (t : Fin cfg0.N) (j : Fin k0_t1_loop.trips) (hb : 16 * t.val + j.val < 128) :
    rowOf (qSlab (F := Ideal) (ms0_0 t) ((hs0_0 t).unread (iblk m c 0 t)) j) = queries m c ⟨16 * t.val + j.val, hb⟩ := by
  funext k d
  show qSlab (F := Ideal) (ms0_0 t) ((hs0_0 t).unread (iblk m c 0 t)) j (ix3 0 k d) = _
  rw [qSlab_block m c t j hb k d, V_queries]; rfl

theorem proto_of_trip (c : Dev nD) (t : Fin cfg0.N) :
    protoOf (pSlabs (F := Ideal) (ms0_1 t) ((hs0_1 t).unread (iblk m c 1 t))) = protos m c := by
  funext cc mm d
  show pSlabs (F := Ideal) (ms0_1 t) ((hs0_1 t).unread (iblk m c 1 t)) mm (ix3 0 d cc) = _
  rw [pSlabs_block m c t mm d cc, V_protos]; rfl

theorem lab_of_trip (c : Dev nD) (t : Fin cfg0.N) (j : Fin k0_t1_loop.trips) (hb : 16 * t.val + j.val < 128) :
    labOf (labSlab (F := Ideal) (ms0_2 t) ((hs0_2 t).unread (iblk m c 2 t)) j) = labels m c ⟨16 * t.val + j.val, hb⟩ := by
  funext k
  show labSlab (F := Ideal) (ms0_2 t) ((hs0_2 t).unread (iblk m c 2 t)) j (ix2 0 k) = _
  rw [labSlab_block m c t j hb k, V_labels]; rfl

/-- Within a point: if the accumulators enter the loop holding the totals of the first `16 t` batch rows, after `n`
    trips they hold those of the first `16 t + n`. -/
theorem afterTrips_point (c : Dev nD) (t : Fin cfg0.N) (g5 g6 : Vec Ideal S8x1 .f32) (r : Fin 8)
    (h5 : g5 (ix2 r 0) = (ProtoLoss.accK (queries m c) (labels m c) (protos m c) (16 * t.val)).1) (h6 : g6 (ix2 r 0) = (ProtoLoss.accK (queries m c) (labels m c) (protos m c) (16 * t.val)).2) :
    ∀ n, n ≤ 16 →
      (afterTrips (F := Ideal) (ms0_0 t) (ms0_1 t) (ms0_2 t) ((hs0_0 t).unread (iblk m c 0 t)) ((hs0_1 t).unread (iblk m c 1 t)) ((hs0_2 t).unread (iblk m c 2 t)) g5 g6 n).1 (ix2 r 0) = (ProtoLoss.accK (queries m c) (labels m c) (protos m c) (16 * t.val + n)).1
        ∧ (afterTrips (F := Ideal) (ms0_0 t) (ms0_1 t) (ms0_2 t) ((hs0_0 t).unread (iblk m c 0 t)) ((hs0_1 t).unread (iblk m c 1 t)) ((hs0_2 t).unread (iblk m c 2 t)) g5 g6 n).2 (ix2 r 0) = (ProtoLoss.accK (queries m c) (labels m c) (protos m c) (16 * t.val + n)).2
  | 0, _ => ⟨h5, h6⟩
  | n + 1, hn => by
    have ht := point_lt t
    have hn' : n < k0_t1_loop.trips := by rw [trips_eq]; omega
    have hb : 16 * t.val + n < 128 := by omega
    obtain ⟨ih5, ih6⟩ := afterTrips_point c t g5 g6 r h5 h6 n (by omega)
    have e : 16 * t.val + (n + 1) = (16 * t.val + n) + 1 := by omega
    rw [e]
    simp only [afterTrips, dif_pos hn', ProtoLoss.accK, dif_pos hb]
    rw [totalStep_apply, countStep_apply, ih5, ih6, row_of_trip m c t ⟨n, hn'⟩ hb, proto_of_trip m c t, lab_of_trip m c t ⟨n, hn'⟩ hb]
    exact ⟨rfl, rfl⟩

/-- After point `n` every row of the two accumulators holds the totals of the first `16 (n + 1)` batch rows. -/
theorem outsAt_acc (c : Dev nD) (r : Fin 8) :
    ∀ (n : ℕ) (hn : n < cfg0.N),
      (outsAt0 m c n hn).2.1 (ix2 r 0) = (ProtoLoss.accK (queries m c) (labels m c) (protos m c) (16 * (n + 1))).1
        ∧ (outsAt0 m c n hn).2.2 (ix2 r 0) = (ProtoLoss.accK (queries m c) (labels m c) (protos m c) (16 * (n + 1))).2
  | 0, hn => by
    let t : Fin cfg0.N := ⟨0, hn⟩
    have h0 : t.val % 8 = 0 := rfl
    have h1 : ¬t.val % 8 = 7 := by show ¬((0 : ℕ) % 8 = 7); decide
    have hA := outsAt0_A m c t h0 h1
    rw [show outsAt0 m c 0 hn = outsAt0 m c t.val t.isLt from rfl, hA]
    dsimp only
    rw [soutA_total, soutA_count, trips_eq]
    have h := afterTrips_point m c t (k0_pay1 (F := Ideal)) (k0_pay2 (F := Ideal)) r
      (by rw [pay1_apply]; rfl) (by rw [pay2_apply]; rfl) 16 le_rfl
    exact h
  | n + 1, hn => by
    let t : Fin cfg0.N := ⟨n + 1, hn⟩
    have ht : n + 1 < 8 := point_lt t
    have h0 : ¬t.val % 8 = 0 := by show ¬(n + 1) % 8 = 0; omega
    obtain ⟨ih5, ih6⟩ := outsAt_acc c r n (Nat.lt_of_succ_lt hn)
    have hprev : ∀ (h : t.val - 1 < cfg0.N), outsAt0 m c (t.val - 1) h = outsAt0 m c n (Nat.lt_of_succ_lt hn) := fun _ => rfl
    have e16 : 16 * (n + 1) = 16 * t.val := rfl
    have e16' : 16 * (n + 1 + 1) = 16 * t.val + 16 := by show 16 * (n + 1 + 1) = 16 * (n + 1) + 16; omega
    rw [e16] at ih5 ih6
    rw [e16']
    by_cases h1 : t.val % 8 = 7
    · have hC := outsAt0_C m c t h0 h1
      rw [show outsAt0 m c (n + 1) hn = outsAt0 m c t.val t.isLt from rfl, hC]
      dsimp only
      rw [soutC_total, soutC_count, trips_eq, hprev]
      exact afterTrips_point m c t _ _ r ih5 ih6 16 le_rfl
    · have hB := outsAt0_B m c t h0 h1
      rw [show outsAt0 m c (n + 1) hn = outsAt0 m c t.val t.isLt from rfl, hB]
      dsimp only
      rw [soutB_total, soutB_count, trips_eq, hprev]
      exact afterTrips_point m c t _ _ r ih5 ih6 16 le_rfl

/-- The block the last point stores holds, everywhere, the mean formed from all 128 batch rows. -/
theorem out_last (c : Dev nD) (h7 : 7 < cfg0.N) (r : Fin 8) (j : Fin 128) :
    (outsAt0 m c 7 h7).1 (ix2 r j) = ProtoLoss.resultK (queries m c) (labels m c) (protos m c) := by
  let t : Fin cfg0.N := ⟨7, h7⟩
  have h0 : ¬t.val % 8 = 0 := by show ¬((7 : ℕ) % 8 = 0); decide
  have h1 : t.val % 8 = 7 := rfl
  obtain ⟨ih5, ih6⟩ := outsAt_acc m c r 6 (Nat.lt_of_succ_lt h7)
  have hprev : ∀ (h : t.val - 1 < cfg0.N), outsAt0 m c (t.val - 1) h = outsAt0 m c 6 (Nat.lt_of_succ_lt h7) := fun _ => rfl
  have hC := outsAt0_C m c t h0 h1
  rw [show outsAt0 m c 7 h7 = outsAt0 m c t.val t.isLt from rfl, hC]
  dsimp only
  rw [outC, trips_eq, hprev, finish_apply]
  obtain ⟨a5, a6⟩ := afterTrips_point m c t _ _ r ih5 ih6 16 le_rfl
  rw [a5, a6]
  rfl

end Cert.KernelIdeal.Steps

end
-- ==== Proof.KFinal.lean ====
/-
  The output array after the run: only the last grid point writes its block back, the block is the whole array,
  and it holds the mean of the labelled losses everywhere.
-/
import proofs.«410938_j52493090291884_4_alg».proof.Proof.KGrid

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

/-- The block the last point stores holds the kernel's result at every index. -/
theorem out_last_idx (c : Dev nD) (h7 : 7 < cfg0.N) (x : S8x128.Idx) :
    (outsAt0 m c 7 h7).1 x = ProtoLoss.resultK (queries m c) (labels m c) (protos m c) := by
  obtain ⟨p, q, rfl⟩ : ∃ (p : Fin 8) (q : Fin 128), x = ix2 p q := ⟨x 0, x 1, eq_ix2 x⟩
  exact out_last m c h7 p q

/-- The contents the output array ends with: the kernel's result everywhere. -/
def resultArr (c : Dev nD) : Buf (Elt Ideal) ((cfg0.win 3).arr.view.loc (c.tc : Thread nD τ)) :=
  (fun _ => ProtoLoss.resultK (queries m c) (labels m c) (protos m c) : S8x128.Idx → EReal)

/-- The output block's index is (0, 0) at every point, and it is as large as the array. -/
theorem blk_facts : ∀ t : Fin cfg0.N, win0_3.index t (0 : Fin 2) * win0_3.size (0 : Fin 2) = 0
    ∧ win0_3.index t (1 : Fin 2) * win0_3.size (1 : Fin 2) = 0
    ∧ win0_3.xsize (grid0.coords t) (0 : Fin 2) = 8 ∧ win0_3.xsize (grid0.coords t) (1 : Fin 2) = 128 :=
  (by decide +kernel : ∀ t : Fin grid0.N, _)

/-- Only the last point writes the block back, and what it writes is the result everywhere: its block of the
    constant contents. -/
theorem flushed_last (c : Dev nD) (t : Fin cfg0.N) (hf : (cfg0.win 3).flush t = true) :
    (dats m 0 c).flushed 3 t = ((cfg0.win 3).blk t).view.read (Elt Ideal) (resultArr m c) := by
  have hN : cfg0.N = 8 := N_0
  have h7 : t.val = 7 := by have := (flush0_3 t).mp hf; have := t.isLt; omega
  obtain rfl : t = t0_7 := Fin.ext h7
  show (cfg0.win 3).cut (grid0.coords t0_7) ((dats m 0 c).after 3 t0_7) = _
  rw [after0_3]
  funext y
  rw [View.read_apply]
  exact out_last_idx m c t0_7.isLt _

/-- Every index of the array lies in the last point's block. -/
theorem cover_last (c : Dev nD) (i : ((cfg0.win 3).arr.view.loc (c.tc : Thread nD τ)).2.ty.Idx) :
    ∃ t : Fin cfg0.N, (cfg0.win 3).flush t = true ∧ i ∈ ((cfg0.win 3).blk t).view.set := by
  refine ⟨t0_7, (flush0_3 t0_7).mpr rfl, ?_⟩
  show i ∈ ((View.whole main_v3).slice (win0_3.rect t0_7)).set
  rw [View.set_slice_whole, Rect.mem_set_unit]
  obtain ⟨e0, e1, e2, e3⟩ := blk_facts t0_7
  intro a
  match a with
  | ⟨0, _⟩ =>
    show win0_3.index t0_7 (0 : Fin 2) * win0_3.size (0 : Fin 2) ≤ (i 0 : ℕ)
      ∧ (i 0 : ℕ) < win0_3.index t0_7 (0 : Fin 2) * win0_3.size (0 : Fin 2) + win0_3.xsize (grid0.coords t0_7) (0 : Fin 2)
    rw [e0, e2]; exact ⟨Nat.zero_le _, by rw [Nat.zero_add]; exact (i 0).isLt⟩
  | ⟨1, _⟩ =>
    show win0_3.index t0_7 (1 : Fin 2) * win0_3.size (1 : Fin 2) ≤ (i 1 : ℕ)
      ∧ (i 1 : ℕ) < win0_3.index t0_7 (1 : Fin 2) * win0_3.size (1 : Fin 2) + win0_3.xsize (grid0.coords t0_7) (1 : Fin 2)
    rw [e1, e3]; exact ⟨Nat.zero_le _, by rw [Nat.zero_add]; exact (i 1).isLt⟩

/-- After the last write-back every entry of the output array is the kernel's result. -/
theorem final_array (c : Dev nD) (i : S8x128.Idx) :
    ((dats m 0 c).arrAt 3 cfg0.N : S8x128.Idx → EReal) i = ProtoLoss.resultK (queries m c) (labels m c) (protos m c) := by
  exact congrFun ((dats m 0 c).arrAt_eq_of_cover 3 (resultArr m c) (flushed_last m c) (cover_last c)) i

end Cert.KernelIdeal.Steps

end
-- ==== Proof.KRun.lean ====
/-
  The idealized kernel's run with its result named: every weakly fair execution ends with the result buffer
  holding the specification's kernel-side value of the three argument arrays, and the arguments unchanged.
-/
import proofs.«410938_j52493090291884_4_alg».proof.Proof.KFinal

set_option maxRecDepth 16384

noncomputable section

namespace Cert.KernelIdeal.Steps

open Cert.KernelIdeal Cert.KernelIdeal.Gen Cert.KernelIdeal.Facts
open Idealize.ShloMosaic Idealize.ShloMosaic.TcCoe Idealize.ShloMosaic.Tactic Idealize.ShloMosaic.ValueIdx
open Idealize.SL Idealize.SL.Sem

variable (m : (ℓ : Loc nD τ sig) → Buf (Elt Ideal) ℓ)

theorem kernel_run (ρ : Dev nD → PrngReg) :
    θ_run defs (onTc (τ := τ) (main (F := Ideal))) ⟨m, fun _ => 0, ρ⟩ (fun r => ∀ c : Dev nD,
      r.2.mem ((c.tc : Thread nD τ).loc main_v5) = (fun _ => ProtoLoss.resultK (queries m c) (labels m c) (protos m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans
        (funext fun i => (tail_value m c i).trans (final_array m c _)),
      (((h c).2 main_arg0 (Pipeline.mem_restRefs_of main_arg0 (by decide) (by decide))).trans (W_main_arg0 m (dats m) c)),
      ((h c).1 2).trans (((dats m 0 c).arrAt_in 2 rfl _).trans ((A_eq m c 2).trans (V_main_arg1 m c))),
      (((h c).2 main_arg2 (Pipeline.mem_restRefs_of main_arg2 (by decide) (by decide))).trans (W_main_arg2 m (dats m) c))⟩)
    (run_main m ρ)

end Cert.KernelIdeal.Steps

end
-- ==== Proof.RefSim.lean ====
/-
  The reference's similarity stage read at an index: the term-by-term normalised, shifted weighted average of the
  eight scores of a query against a concept.
-/
import proofs.«410938_j52493090291884_4_alg».proof.Proof.RefReadP
import proofs.«410938_j52493090291884_4_alg».proof.Proof.Spec
import Idealize.ShloMosaic.PureOps.Reduce

noncomputable section

namespace Cert.ReferenceIdeal.AtIndex

open Cert.ReferenceIdeal Cert.ReferenceIdeal.Gen Cert.ReferenceIdeal.ReadP Idealize.ShloMosaic Idealize.ShloMosaic.ValueIdx

/-- The queries of batch row `b`, the prototypes, and the labels, as plain index functions of the argument arrays. -/
def rowsOf (x0 : (⟨S128x256x128, .f32⟩ : BufTy).Contents (Elt Ideal)) : Fin 128 → Fin 256 → Fin 128 → EReal :=
  fun b k d => x0 (ix3 b k d)
def protoOf (x2 : (⟨S256x8x128, .f32⟩ : BufTy).Contents (Elt Ideal)) : Fin 256 → Fin 8 → Fin 128 → EReal :=
  fun c m d => x2 (ix3 c m d)
def labelsOf (x1 : (⟨S128x256, .i32⟩ : BufTy).Contents (Elt Ideal)) : Fin 128 → Fin 256 → BitVec 32 :=
  fun b k => x1 (ix2 b k)

/-! The stages' index maps, at an index given by its coordinates, are again indices given by coordinates. -/

private theorem idx15 (b : Fin 128) (k c : Fin 256) (m : Fin 8) : idx_main_v15 (ix3 b k c) m = ix4 b k c m :=
  funext fun a => Fin.ext (by match a with | ⟨0, _⟩ => rfl | ⟨1, _⟩ => rfl | ⟨2, _⟩ => rfl | ⟨3, _⟩ => rfl)
private theorem idx10 (b : Fin 128) (k c : Fin 256) (m : Fin 8) : idx_main_v10 (ix3 b k c) m = ix4 b k c m :=
  funext fun a => Fin.ext (by match a with | ⟨0, _⟩ => rfl | ⟨1, _⟩ => rfl | ⟨2, _⟩ => rfl | ⟨3, _⟩ => rfl)
private theorem idx12 (b : Fin 128) (k c : Fin 256) (m : Fin 8) : idx_main_v12 (ix4 b k c m) = ix4 b k c (0 : Fin 1) :=
  funext fun a => Fin.ext (by match a with | ⟨0, _⟩ => rfl | ⟨1, _⟩ => rfl | ⟨2, _⟩ => rfl | ⟨3, _⟩ => rfl)
private theorem idx11 (b : Fin 128) (k c : Fin 256) : idx_main_v11 (ix4 b k c (0 : Fin 1)) = ix3 b k c :=
  funext fun a => Fin.ext (by match a with | ⟨0, _⟩ => rfl | ⟨1, _⟩ => rfl | ⟨2, _⟩ => rfl)
private theorem idx7 (b : Fin 128) (k c : Fin 256) (m : Fin 8) : idx_main_v7 (ix4 b k c m) = ix4 b k c (0 : Fin 1) :=
  funext fun a => Fin.ext (by match a with | ⟨0, _⟩ => rfl | ⟨1, _⟩ => rfl | ⟨2, _⟩ => rfl | ⟨3, _⟩ => rfl)
private theorem idx6 (b : Fin 128) (k c : Fin 256) : idx_main_v6 (ix4 b k c (0 : Fin 1)) = ix3 b k c :=
  funext fun a => Fin.ext (by match a with | ⟨0, _⟩ => rfl | ⟨1, _⟩ => rfl | ⟨2, _⟩ => rfl)
private theorem lidx0 (b : Fin 128) (k c : Fin 256) (m : Fin 8) (d : Fin 128) : lidx_main_v0 (ix4 b k c m) d = ix3 b k d :=
  funext fun a => Fin.ext (by match a with | ⟨0, _⟩ => rfl | ⟨1, _⟩ => rfl | ⟨2, _⟩ => rfl)
private theorem ridx0 (b : Fin 128) (k c : Fin 256) (m : Fin 8) (d : Fin 128) : ridx_main_v0 (ix4 b k c m) d = ix3 c m d :=
  funext fun a => Fin.ext (by match a with | ⟨0, _⟩ => rfl | ⟨1, _⟩ => rfl | ⟨2, _⟩ => rfl)

/-- The inner-product stage at an index is the score. -/
private theorem v0_at (x0 : (⟨S128x256x128, .f32⟩ : BufTy).Contents (Elt Ideal)) (x2 : (⟨S256x8x128, .f32⟩ : BufTy).Contents (Elt Ideal))
    (b : Fin 128) (k c : Fin 256) (m : Fin 8) :
    val_main_v0 (F := Ideal) x0 x2 (ix4 b k c m) = ProtoLoss.score (rowsOf x0 b) (protoOf x2) k c m := by
  rw [val_main_v0_apply]
  unfold ProtoLoss.score rowsOf protoOf
  simp only [lidx0, ridx0]

/-- The scaled stage at an index. -/
private theorem v2_at (x0 : (⟨S128x256x128, .f32⟩ : BufTy).Contents (Elt Ideal)) (x2 : (⟨S256x8x128, .f32⟩ : BufTy).Contents (Elt Ideal))
    (b : Fin 128) (k c : Fin 256) (m : Fin 8) :
    val_main_v2 (F := Ideal) x0 x2 (ix4 b k c m) = ProtoLoss.gain * ProtoLoss.score (rowsOf x0 b) (protoOf x2) k c m := by
  rw [val_main_v2_apply, val_main_v1_apply, val_main_cst_apply, v0_at]
  rfl

/-- The reduced index with coordinate `m` put back on the last axis. -/
private theorem lift3 (h : S128x256x256x8.Reduces [3] S128x256x256) (b : Fin 128) (k c : Fin 256)
    (m : Fin (S128x256x256x8.size 3)) : h.lift (ix3 b k c) m = ix4 b k c (⟨m.val, m.isLt⟩ : Fin 8) := by
  funext a; apply Fin.ext
  fin_cases a <;> rfl

/-- The maximum stage at an index: the fold from minus infinity over the eight scaled scores. -/
private theorem v3_at (x0 : (⟨S128x256x128, .f32⟩ : BufTy).Contents (Elt Ideal)) (x2 : (⟨S256x8x128, .f32⟩ : BufTy).Contents (Elt Ideal))
    (b : Fin 128) (k c : Fin 256) :
    val_main_v3 (F := Ideal) x0 x2 (ix3 b k c)
      = (Finset.univ : Finset (Fin 8)).fold max ProtoLoss.negInf
          (fun m => ProtoLoss.gain * ProtoLoss.score (rowsOf x0 b) (protoOf x2) k c m) := by
  have h : S128x256x256x8.Reduces [3] S128x256x256 := by decide
  unfold val_main_v3
  rw [Host.reduce_eq_fold_single FloatOps.maximumf _ _ reducesTo_S128x256x256x8_S128x256x256_d3 h h_S_]
  have hf : (val_main_v2 (F := Ideal) x0 x2 ∘ h.lift (ix3 b k c))
      = fun m : Fin 8 => ProtoLoss.gain * ProtoLoss.score (rowsOf x0 b) (protoOf x2) k c m := funext fun m => by
    show val_main_v2 (F := Ideal) x0 x2 (h.lift (ix3 b k c) m) = _
    rw [lift3 h, v2_at]
    rfl
  exact congrArg (fun f => Finset.fold max (Ideal.ofBits .f32 0xFF800000#32) f (Finset.univ : Finset (Fin 8))) hf

/-- The shift stage at an index: the largest scaled score, as the specification folds it. -/
private theorem v5_at (x0 : (⟨S128x256x128, .f32⟩ : BufTy).Contents (Elt Ideal)) (x2 : (⟨S256x8x128, .f32⟩ : BufTy).Contents (Elt Ideal))
    (b : Fin 128) (k c : Fin 256) :
    val_main_v5 (F := Ideal) x0 x2 (ix3 b k c) = ProtoLoss.shiftR (ProtoLoss.score (rowsOf x0 b) (protoOf x2) k c) := by
  rw [val_main_v5_apply, val_main_v4_apply, val_main_cst_1_apply, v3_at]
  rfl

/-- The shift broadcast back over the eight prototypes. -/
private theorem v7_at (x0 : (⟨S128x256x128, .f32⟩ : BufTy).Contents (Elt Ideal)) (x2 : (⟨S256x8x128, .f32⟩ : BufTy).Contents (Elt Ideal))
    (b : Fin 128) (k c : Fin 256) (m : Fin 8) :
    val_main_v7 (F := Ideal) x0 x2 (ix4 b k c m) = ProtoLoss.shiftR (ProtoLoss.score (rowsOf x0 b) (protoOf x2) k c) := by
  rw [val_main_v7_apply, idx7, val_main_v6_apply, idx6, v5_at]

/-- The shifted weight of prototype `m`. -/
private theorem v9_at (x0 : (⟨S128x256x128, .f32⟩ : BufTy).Contents (Elt Ideal)) (x2 : (⟨S256x8x128, .f32⟩ : BufTy).Contents (Elt Ideal))
    (b : Fin 128) (k c : Fin 256) (m : Fin 8) :
    val_main_v9 (F := Ideal) x0 x2 (ix4 b k c m)
      = Ideal.exp (ProtoLoss.gain * ProtoLoss.score (rowsOf x0 b) (protoOf x2) k c m - ProtoLoss.shiftR (ProtoLoss.score (rowsOf x0 b) (protoOf x2) k c)) := by
  rw [val_main_v9_apply, val_main_v8_apply, v2_at, v7_at]
  rfl

/-- The shifted weights' sum, from zero. -/
private theorem v10_at (x0 : (⟨S128x256x128, .f32⟩ : BufTy).Contents (Elt Ideal)) (x2 : (⟨S256x8x128, .f32⟩ : BufTy).Contents (Elt Ideal))
    (b : Fin 128) (k c : Fin 256) :
    val_main_v10 (F := Ideal) x0 x2 (ix3 b k c)
      = ProtoLoss.zero + ∑ m : Fin 8, Ideal.exp (ProtoLoss.gain * ProtoLoss.score (rowsOf x0 b) (protoOf x2) k c m - ProtoLoss.shiftR (ProtoLoss.score (rowsOf x0 b) (protoOf x2) k c)) := by
  rw [val_main_v10_apply, val_main_cst_2_apply]
  simp only [idx10, v9_at]
  rfl

/-- The sum broadcast back over the eight prototypes. -/
private theorem v12_at (x0 : (⟨S128x256x128, .f32⟩ : BufTy).Contents (Elt Ideal)) (x2 : (⟨S256x8x128, .f32⟩ : BufTy).Contents (Elt Ideal))
    (b : Fin 128) (k c : Fin 256) (m : Fin 8) :
    val_main_v12 (F := Ideal) x0 x2 (ix4 b k c m)
      = ProtoLoss.zero + ∑ m' : Fin 8, Ideal.exp (ProtoLoss.gain * ProtoLoss.score (rowsOf x0 b) (protoOf x2) k c m' - ProtoLoss.shiftR (ProtoLoss.score (rowsOf x0 b) (protoOf x2) k c)) := by
  rw [val_main_v12_apply, idx12, val_main_v11_apply, idx11, v10_at]

/-- The similarity stage at batch row `b`, query `k`, concept `c`. -/
theorem sim_apply (x0 : (⟨S128x256x128, .f32⟩ : BufTy).Contents (Elt Ideal)) (x2 : (⟨S256x8x128, .f32⟩ : BufTy).Contents (Elt Ideal))
    (b : Fin 128) (k c : Fin 256) :
    val_main_v15 (F := Ideal) x0 x2 (ix3 b k c) = ProtoLoss.simR (rowsOf x0 b) (protoOf x2) k c := by
  rw [val_main_v15_apply, val_main_cst_3_apply]
  simp only [idx15, val_main_v14_apply, val_main_v13_apply, v9_at, v12_at, v0_at]
  rfl

end Cert.ReferenceIdeal.AtIndex

end
-- ==== Proof.RefLoss.lean ====
/-
  The reference's result read off its stages: the mean of the labelled losses over the whole batch.
-/
import proofs.«410938_j52493090291884_4_alg».proof.Proof.RefSim

noncomputable section

namespace Cert.ReferenceIdeal.AtIndex

open Cert.ReferenceIdeal Cert.ReferenceIdeal.Gen Cert.ReferenceIdeal.ReadP Idealize.ShloMosaic Idealize.ShloMosaic.ValueIdx

/-- Two 32-bit words counting below 256 are equal exactly when the counts are. -/
theorem iotaWord_eq_iff (j k : Fin 256) : BitVec.ofNat 32 j.val = BitVec.ofNat 32 k.val ↔ j = k := by
  constructor
  · intro h
    have h' := congrArg BitVec.toNat h
    simp only [BitVec.toNat_ofNat] at h'
    have hj := j.isLt
    have hk := k.isLt
    exact Fin.ext (by omega)
  · rintro rfl; rfl

/-- A select on the equality of two such words is the `if` on the counts. -/
theorem select_iotaWord_eq {α : Type} (j k : Fin 256) (A B : α) :
    Scalar.select (IntOp.cmpi .eq (BitVec.ofNat 32 j.val) (BitVec.ofNat 32 k.val)) A B = if j = k then A else B := by
  have hc : IntOp.cmpi .eq (BitVec.ofNat 32 j.val) (BitVec.ofNat 32 k.val)
      = BitVec.ofBool (BitVec.ofNat 32 j.val == BitVec.ofNat 32 k.val) := rfl
  rw [hc]
  by_cases h : j = k
  · subst h
    rw [beq_self_eq_true, if_pos rfl]
    exact if_pos rfl
  · have hne : ¬ BitVec.ofNat 32 j.val = BitVec.ofNat 32 k.val := fun h' => h ((iotaWord_eq_iff j k).mp h')
    rw [beq_eq_false_iff_ne.mpr hne, if_neg h]
    exact if_neg (by decide)

variable (x0 : (⟨S128x256x128, .f32⟩ : BufTy).Contents (Elt Ideal)) (x1 : (⟨S128x256, .i32⟩ : BufTy).Contents (Elt Ideal))
  (x2 : (⟨S256x8x128, .f32⟩ : BufTy).Contents (Elt Ideal))

/-- The selected similarity at batch row `b`, query `j`, concept `k`: the similarity on the diagonal, zero off it. -/
theorem diag_apply (b : Fin 128) (j k : Fin 256) :
    val_main_v21 (F := Ideal) x0 x2 (ix3 b j k)
      = if j = k then ProtoLoss.simR (rowsOf x0 b) (protoOf x2) j k else ProtoLoss.zero := by
  rw [val_main_v21_apply, val_main_v19_apply, val_main_v18_apply, val_main_v16_apply, val_main_v17_apply,
    val_main_v20_apply, val_main_cst_4_apply, sim_apply]
  exact select_iotaWord_eq j k _ _

/-- The weight of a similarity at batch row `b`, query `k`, concept `c`. -/
theorem expw_apply (b : Fin 128) (k c : Fin 256) :
    val_main_v27 (F := Ideal) x0 x2 (ix3 b k c)
      = Ideal.exp (ProtoLoss.gain * ProtoLoss.simR (rowsOf x0 b) (protoOf x2) k c) := by
  rw [val_main_v27_apply, val_main_v26_apply, val_main_v25_apply, val_main_cst_7_apply, sim_apply]
  rfl

/-- The loss stage at batch row `b`, query `k`. -/
theorem loss_apply (b : Fin 128) (k : Fin 256) :
    val_main_v34 (F := Ideal) x0 x2 (ix2 b k) = ProtoLoss.lossR (rowsOf x0 b) (protoOf x2) k := by
  have h28 : ∀ c : Fin 256, idx_main_v28 (ix2 b k) c = ix3 b k c := fun c =>
    funext fun a => Fin.ext (by match a with | ⟨0, _⟩ => rfl | ⟨1, _⟩ => rfl | ⟨2, _⟩ => rfl)
  have h22 : ∀ j : Fin 256, idx_main_v22 (ix2 b k) j = ix3 b j k := fun j =>
    funext fun a => Fin.ext (by match a with | ⟨0, _⟩ => rfl | ⟨1, _⟩ => rfl | ⟨2, _⟩ => rfl)
  rw [val_main_v34_apply, val_main_v31_apply, val_main_v30_apply, val_main_v28_apply, val_main_v29_apply,
    val_main_cst_9_apply, val_main_cst_8_apply, val_main_v33_apply, val_main_v32_apply, val_main_cst_10_apply,
    val_main_v24_apply, val_main_v22_apply, val_main_v23_apply, val_main_cst_6_apply, val_main_cst_5_apply]
  simp only [h28, h22, expw_apply, diag_apply]
  rfl

/-- The label stage at batch row `b`, query `k`: one where the label word is 1, else zero. -/
theorem mask_apply (b : Fin 128) (k : Fin 256) :
    val_main_v37 (F := Ideal) x1 (ix2 b k) = ProtoLoss.maskW (labelsOf x1 b k) := by
  rw [val_main_v37_apply, val_main_v36_apply, val_main_v35_apply, val_main_c_apply]
  show (((IntOp.cmpi .eq (x1 (ix2 b k)) 1#32).toNat : ℝ) : EReal) = if x1 (ix2 b k) = 1#32 then 1 else 0
  generalize x1 (ix2 b k) = w
  have hc : IntOp.cmpi .eq w 1#32 = BitVec.ofBool (w == 1#32) := rfl
  rw [hc]
  by_cases h : w = 1#32
  · subst h
    rw [beq_self_eq_true, if_pos rfl]
    simp
  · rw [beq_eq_false_iff_ne.mpr h, if_neg h]
    simp

/-- The reference's result is the specification's `resultR` of the three argument arrays. -/
theorem result_apply (x0 : (⟨S128x256x128, .f32⟩ : BufTy).Contents (Elt Ideal)) (x1 : (⟨S128x256, .i32⟩ : BufTy).Contents (Elt Ideal))
    (x2 : (⟨S256x8x128, .f32⟩ : BufTy).Contents (Elt Ideal)) (i : S_.Idx) :
    val_main_v43 (F := Ideal) x0 x1 x2 i = ProtoLoss.resultR (rowsOf x0) (labelsOf x1) (protoOf x2) := by
  have h38 : val_main_v38 (F := Ideal) x1 i
      = ProtoLoss.zero + ∑ b : Fin 128, ∑ k : Fin 256, ProtoLoss.maskW (labelsOf x1 b k) := by
    rw [val_main_v38_apply, val_main_cst_11_apply, sum_idx2]
    simp only [mask_apply]
    rfl
  have h40 : val_main_v40 (F := Ideal) x0 x1 x2 i
      = ProtoLoss.zero + ∑ b : Fin 128, ∑ k : Fin 256,
          ProtoLoss.lossR (rowsOf x0 b) (protoOf x2) k * ProtoLoss.maskW (labelsOf x1 b k) := by
    rw [val_main_v40_apply, val_main_cst_12_apply, sum_idx2]
    simp only [val_main_v39_apply, loss_apply, mask_apply]
    rfl
  rw [val_main_v43_apply, val_main_v41_apply, val_main_v42_apply, val_main_cst_13_apply, h38, h40]
  rfl

end Cert.ReferenceIdeal.AtIndex

end
-- ==== Proof.RefTerm.lean ====
/-
  The reference's run with its result named: every weakly fair execution ends with the result buffer holding the
  specification's reference-side value of the three argument arrays, and the arguments unchanged.
-/
import proofs.«410938_j52493090291884_4_alg».proof.Proof.RefLoss

noncomputable section

namespace Cert.ReferenceIdeal.AtIndex

open Cert.ReferenceIdeal Cert.ReferenceIdeal.Gen Idealize.ShloMosaic Idealize.ShloMosaic.TcCoe Idealize.SL.Sem

theorem reference_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v43)
          = (fun _ => ProtoLoss.resultR (rowsOf (m ((c.tc : Thread nD τ).loc main_arg0)))
              (labelsOf (m ((c.tc : Thread nD τ).loc main_arg1))) (protoOf (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).1.trans ((Cert.ReferenceIdeal.ReadP.val_main_v43_eq m c).trans (funext fun i => result_apply _ _ _ i)), (h c).2⟩)
    (Cert.ReferenceIdeal.ValueP.run (F := Ideal) m ρ)

end Cert.ReferenceIdeal.AtIndex

end
-- ==== Proof.BridgeAvg.lean ====
/-
  On real scores the two spellings of the weighted average agree: shifting every exponent by a common real
  amount multiplies numerator and denominator by the same positive factor.
-/
import proofs.«410938_j52493090291884_4_alg».proof.Proof.Spec

noncomputable section

namespace ProtoLoss

open Idealize.ShloMosaic

/-- The gain literal is a real number. -/
theorem gain_real : ∃ g : ℝ, gain = (g : EReal) := by
  -- The word's exponent field is neither all ones nor zero, so it denotes a normal number.
  simp only [gain, Ideal.ofBits, Ideal.ieee]
  rw [if_neg (by decide), if_neg (by decide)]
  exact ⟨_, rfl⟩

/-- The zero word is zero. -/
theorem zero_eq : zero = 0 := by
  simp [zero, Ideal.ofBits, Ideal.ieee]

/-- The word of minus infinity is the bottom element. -/
private theorem negInf_eq : negInf = ⊥ := by
  simp [negInf, Ideal.ofBits, Ideal.ieee]

/-- A finite sum of reals, taken in the extended reals, is the real sum. -/
private theorem coe_sum {ι : Type*} (t : Finset ι) (f : ι → ℝ) :
    ∑ i ∈ t, (f i : EReal) = ((∑ i ∈ t, f i : ℝ) : EReal) := by
  classical
  induction t using Finset.induction_on with
  | empty => simp
  | insert a t ha ih => rw [Finset.sum_insert ha, Finset.sum_insert ha, ih, EReal.coe_add]

/-- A score of finite vectors is a real number. -/
theorem score_real (row : Fin 256 → Fin 128 → EReal) (proto : Fin 256 → Fin 8 → Fin 128 → EReal)
    (hrow : ∀ k d, ∃ r : ℝ, row k d = (r : EReal)) (hproto : ∀ c m d, ∃ r : ℝ, proto c m d = (r : EReal))
    (k c : Fin 256) (m : Fin 8) : ∃ r : ℝ, score row proto k c m = (r : EReal) := by
  choose r hr using hrow
  choose p hp using hproto
  refine ⟨∑ d : Fin 128, r k d * p c m d, ?_⟩
  unfold score
  simp only [hr, hp, ← EReal.coe_mul]
  exact coe_sum _ _

/-- The running maximum of reals from the bottom element is the bottom element (over no terms) or a real. -/
private theorem fold_max_real {ι : Type*} (t : Finset ι) (f : ι → ℝ) :
    t.fold max (⊥ : EReal) (fun i => (f i : EReal)) = ⊥
      ∨ ∃ μ : ℝ, t.fold max (⊥ : EReal) (fun i => (f i : EReal)) = (μ : EReal) := by
  classical
  induction t using Finset.induction_on with
  | empty => left; simp
  | insert a t ha ih =>
    right
    rw [Finset.fold_insert ha]
    rcases ih with h | ⟨μ, h⟩
    · exact ⟨f a, by rw [h, max_bot_right]⟩
    · exact ⟨max (f a) μ, by rw [h]; exact (EReal.coe_strictMono.monotone.map_max).symm⟩

/-- The largest scaled score of eight real scores is a real number. -/
private theorem shiftR_real (s : Fin 8 → EReal) (r : Fin 8 → ℝ) (g : ℝ) (hg : gain = (g : EReal))
    (hr : ∀ m, s m = (r m : EReal)) : ∃ μ : ℝ, shiftR s = (μ : EReal) := by
  unfold shiftR
  rw [negInf_eq, max_bot_left]
  simp only [hr, hg, ← EReal.coe_mul]
  rcases fold_max_real Finset.univ (fun m => g * r m) with h | h
  · -- The maximum is at least its first term, a real, so it is not the bottom element.
    exfalso
    have h0 : ((g * r 0 : ℝ) : EReal)
        ≤ (Finset.univ : Finset (Fin 8)).fold max (⊥ : EReal) (fun m => ((g * r m : ℝ) : EReal)) :=
      (Finset.le_fold_max _).mpr (Or.inr ⟨0, Finset.mem_univ _, le_rfl⟩)
    rw [h] at h0
    exact absurd (le_bot_iff.mp h0) (EReal.coe_ne_bot _)
  · exact h

/-- In the reals: scaling every positive weight by a common positive factor `c` leaves the normalised
    weighted average unchanged. -/
private theorem real_avg (E r : Fin 8 → ℝ) (c : ℝ) (hE : ∀ m, 0 < E m) (hc : 0 < c) :
    (∑ m, E m * r m) * (1 / ∑ m, E m) = ∑ m, (E m * c) * (1 / ∑ m', E m' * c) * r m := by
  have hS : 0 < ∑ m, E m := Finset.sum_pos (fun m _ => hE m) Finset.univ_nonempty
  rw [← Finset.sum_mul, Finset.sum_mul]
  apply Finset.sum_congr rfl
  intro m _
  have hS' : (∑ m, E m) ≠ 0 := ne_of_gt hS
  have hc' : c ≠ 0 := ne_of_gt hc
  field_simp

/-- The quotient of the two running sums, on real scores, as a real number. -/
private theorem avgK_coe (s : Fin 8 → EReal) (r : Fin 8 → ℝ) (g : ℝ) (hg : gain = (g : EReal))
    (hr : ∀ m, s m = (r m : EReal)) :
    avgK s = (((∑ m, Real.exp (g * r m) * r m) * (1 / ∑ m, Real.exp (g * r m)) : ℝ) : EReal) := by
  have hD : (∑ m, Real.exp (g * r m)) ≠ 0 :=
    ne_of_gt (Finset.sum_pos (fun m _ => Real.exp_pos _) Finset.univ_nonempty)
  rw [Fin.sum_univ_eight] at hD
  unfold avgK wt
  simp only [hr, hg, zero_eq, zero_add, ← EReal.coe_mul, Ideal.exp_coe, ← EReal.coe_add]
  rw [Ideal.div_coe hD, ← EReal.coe_mul, Fin.sum_univ_eight, Fin.sum_univ_eight]

/-- The shifted, term-by-term normalised average, on real scores and a real shift, as a real number. -/
private theorem avgR_coe (s : Fin 8 → EReal) (r : Fin 8 → ℝ) (g μ : ℝ) (hg : gain = (g : EReal))
    (hr : ∀ m, s m = (r m : EReal)) (hμ : shiftR s = (μ : EReal)) :
    avgR s = ((∑ m, Real.exp (g * r m - μ) * (1 / ∑ m', Real.exp (g * r m' - μ)) * r m : ℝ) : EReal) := by
  have hD : (∑ m, Real.exp (g * r m - μ)) ≠ 0 :=
    ne_of_gt (Finset.sum_pos (fun m _ => Real.exp_pos _) Finset.univ_nonempty)
  unfold avgR
  simp only [hμ, hr, hg, zero_eq, zero_add, ← EReal.coe_mul, ← EReal.coe_sub, Ideal.exp_coe, coe_sum]
  simp only [Ideal.div_coe hD, ← EReal.coe_mul, coe_sum]

/-- On real scores the kernel's quotient of running sums is the reference's shifted, term-by-term normalised average. -/
theorem avgK_eq_avgR (s : Fin 8 → EReal) (hs : ∀ m, ∃ r : ℝ, s m = (r : EReal)) : avgK s = avgR s := by
  obtain ⟨g, hg⟩ := gain_real
  choose r hr using hs
  obtain ⟨μ, hμ⟩ := shiftR_real s r g hg hr
  rw [avgK_coe s r g hg hr, avgR_coe s r g μ hg hr hμ]
  congr 1
  -- exp (a - μ) = exp a * exp (-μ), a common positive factor.
  have h := real_avg (fun m => Real.exp (g * r m)) r (Real.exp (-μ)) (fun m => Real.exp_pos _) (Real.exp_pos _)
  simp only [← Real.exp_add, ← sub_eq_add_neg] at h
  exact h

end ProtoLoss

end
-- ==== Proof.BridgeSum.lean ====
/-
  On finite inputs the kernel's result is the reference's: the similarities agree, the diagonal picked by a 0/1
  factor is the diagonal selected, and adding batch rows one after the other from zero is the sum over the batch.
-/
import proofs.«410938_j52493090291884_4_alg».proof.Proof.BridgeAvg

noncomputable section

namespace ProtoLoss

open Idealize.ShloMosaic

/-- On finite inputs the two spellings of a similarity agree: the scores are real. -/
theorem simK_eq_simR (row : Fin 256 → Fin 128 → EReal) (proto : Fin 256 → Fin 8 → Fin 128 → EReal)
    (hrow : ∀ k d, ∃ r : ℝ, row k d = (r : EReal)) (hproto : ∀ c m d, ∃ r : ℝ, proto c m d = (r : EReal))
    (k c : Fin 256) : simK row proto k c = simR row proto k c := by
  unfold simK simR
  exact avgK_eq_avgR _ (fun m => score_real row proto hrow hproto k c m)

/-- The diagonal picked by a 0/1 factor along a row is the diagonal selected along a column: both are the one
    diagonal entry. -/
theorem diag_eq (f : Fin 256 → Fin 256 → EReal) (k : Fin 256) :
    (∑ c : Fin 256, f k c * (if k = c then (1 : EReal) else 0)) = ∑ j : Fin 256, if j = k then f j k else 0 := by
  simp only [mul_ite, mul_one, mul_zero]
  rw [Finset.sum_ite_eq, Finset.sum_ite_eq']

/-- On finite inputs the two spellings of a query's loss agree. -/
theorem lossK_eq_lossR (row : Fin 256 → Fin 128 → EReal) (proto : Fin 256 → Fin 8 → Fin 128 → EReal)
    (hrow : ∀ k d, ∃ r : ℝ, row k d = (r : EReal)) (hproto : ∀ c m d, ∃ r : ℝ, proto c m d = (r : EReal))
    (k : Fin 256) : lossK row proto k = lossR row proto k := by
  unfold lossK lossR
  have hs : ∀ a c, simK row proto a c = simR row proto a c := simK_eq_simR row proto hrow hproto
  simp only [hs]
  rw [diag_eq (fun a c => simR row proto a c) k, zero_eq, zero_add, zero_add]

section Batch

variable (V : Fin 128 → Fin 256 → Fin 128 → EReal) (L : Fin 128 → Fin 256 → BitVec 32)
  (proto : Fin 256 → Fin 8 → Fin 128 → EReal)

/-- After `n` batch rows the first accumulator holds the sum of the first `n` rows' totals. -/
theorem accK_fst (n : ℕ) (hn : n ≤ 128) :
    (accK V L proto n).1
      = ∑ i ∈ Finset.range n, (if h : i < 128 then rowTotal V L proto ⟨i, h⟩ else 0) := by
  induction n with
  | zero => simp [accK, zero_eq]
  | succ n ih =>
    have h : n < 128 := hn
    rw [accK, dif_pos h, Finset.sum_range_succ, ih (le_of_lt h), dif_pos h]

/-- After `n` batch rows the second accumulator holds the sum of the first `n` rows' counts. -/
theorem accK_snd (n : ℕ) (hn : n ≤ 128) :
    (accK V L proto n).2
      = ∑ i ∈ Finset.range n, (if h : i < 128 then rowCount L ⟨i, h⟩ else 0) := by
  induction n with
  | zero => simp [accK, zero_eq]
  | succ n ih =>
    have h : n < 128 := hn
    rw [accK, dif_pos h, Finset.sum_range_succ, ih (le_of_lt h), dif_pos h]

/-- A sum over the first 128 naturals of a function defined on `Fin 128` is the sum over `Fin 128`. -/
theorem sum_range_dite (f : Fin 128 → EReal) :
    (∑ i ∈ Finset.range 128, (if h : i < 128 then f ⟨i, h⟩ else 0)) = ∑ b : Fin 128, f b := by
  rw [← Fin.sum_univ_eq_sum_range (fun i => if h : i < 128 then f ⟨i, h⟩ else 0) 128]
  apply Finset.sum_congr rfl
  intro b _
  rw [dif_pos b.isLt]

theorem accK_fst_full : (accK V L proto 128).1 = ∑ b : Fin 128, rowTotal V L proto b := by
  rw [accK_fst V L proto 128 le_rfl, sum_range_dite]

theorem accK_snd_full : (accK V L proto 128).2 = ∑ b : Fin 128, rowCount L b := by
  rw [accK_snd V L proto 128 le_rfl, sum_range_dite]

end Batch

theorem resultK_eq_resultR (V : Fin 128 → Fin 256 → Fin 128 → EReal) (L : Fin 128 → Fin 256 → BitVec 32)
    (proto : Fin 256 → Fin 8 → Fin 128 → EReal)
    (hV : ∀ b k d, ∃ r : ℝ, V b k d = (r : EReal)) (hproto : ∀ c m d, ∃ r : ℝ, proto c m d = (r : EReal)) :
    resultK V L proto = resultR V L proto := by
  unfold resultK resultR
  rw [accK_fst_full, accK_snd_full, zero_eq, zero_add, zero_add]
  unfold rowTotal rowCount
  have hl : ∀ b k, lossK (V b) proto k = lossR (V b) proto k :=
    fun b k => lossK_eq_lossR (V b) proto (hV b) hproto k
  simp only [hl]

end ProtoLoss

end
-- ==== Proof.Finite.lean ====
/-
  The precondition says every entry of the two float arguments is a real number.
-/
import proofs.«410938_j52493090291884_4_alg».proof.Defs
import proofs.«410938_j52493090291884_4_alg».proof.Proof.Gen.Pre_finite_inputs
import Idealize.ShloMosaic.Lib.ReduceAll

noncomputable section

namespace Cert.Proof.Finite

open Idealize.ShloMosaic Idealize.SL.Sem

/-- The single-precision word with all exponent bits set, sign clear and zero significand denotes +∞. -/
theorem inf_word : Ideal.ofBits .f32 0x7F800000#32 = (⊤ : EReal) := by
  simp [Ideal.ofBits, Ideal.ieee]

/-- An extended real whose absolute value max x (−x) lies strictly below +∞ is a real number:
    at −∞ and at +∞ the absolute value is +∞ itself, which is not below +∞. -/
theorem real_of_abs_lt_inf (x : EReal)
    (h : Ideal.cmp .olt (max x (-x)) (Ideal.ofBits .f32 0x7F800000#32) = 1#1) : ∃ r : ℝ, x = (r : EReal) := by
  rw [inf_word] at h
  induction x using EReal.rec with
  | bot => simp [Ideal.cmp] at h
  | coe r => exact ⟨r, rfl⟩
  | top => simp [Ideal.cmp] at h

/-- Under the precondition the queries and the prototypes are finite, entry by entry, on every device. -/
theorem entries_real [hP : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg2) i = (r : EReal)) := by
  -- the rank-0 shape has exactly one index
  haveI : Subsingleton Cert.Pre_finite_inputs.S_.Idx := ⟨fun a b => funext fun d => d.elim0⟩
  -- the predicate's one result word is 1; it is the conjunction of two conjunctions over all entries
  have h0 := congrFun (h c) (fun a => a.elim0)
  dsimp only [Cert.Pre_finite_inputs.fn] at h0
  obtain ⟨hA, hB⟩ := IntOp.andi_eq_one.1 h0
  -- each conjunction over all entries gives |entry| < +∞ at every index, hence a real entry
  exact ⟨fun i => real_of_abs_lt_inf _ (Host.reduce_andi_all _ _ _ _ _ hA i),
         fun i => real_of_abs_lt_inf _ (Host.reduce_andi_all _ _ _ _ _ hB i)⟩

end Cert.Proof.Finite

end
-- ==== Proof.lean ====
/-
  The certificate's claim. The three frames are the generated ones (the reference's is its run with the result
  dropped); the kernel's idealization rewrote nothing. The two idealized programs agree: the kernel ends at the mean
  of the labelled losses formed row after row from running sums, the reference at the same mean formed from
  shifted, term-by-term normalised weights and whole-batch sums, and on finite inputs these are one number.
-/
import proofs.«410938_j52493090291884_4_alg».proof.Defs
import proofs.«410938_j52493090291884_4_alg».proof.Proof.Gen.Kernel
import proofs.«410938_j52493090291884_4_alg».proof.Proof.Gen.Kernel.Frame
import proofs.«410938_j52493090291884_4_alg».proof.Proof.Gen.KernelIdeal
import proofs.«410938_j52493090291884_4_alg».proof.Proof.Gen.KernelIdeal.Frame
import proofs.«410938_j52493090291884_4_alg».proof.Proof.Gen.ReferenceIdeal
import proofs.«410938_j52493090291884_4_alg».proof.Proof.Gen.Pre_finite_inputs
import proofs.«410938_j52493090291884_4_alg».proof.Proof.KRun
import proofs.«410938_j52493090291884_4_alg».proof.Proof.RefTerm
import proofs.«410938_j52493090291884_4_alg».proof.Proof.BridgeSum
import proofs.«410938_j52493090291884_4_alg».proof.Proof.Finite
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the three arguments both programs end at the kernel's value: the reference's value
    of the same arrays is that number, because the precondition makes every query and prototype entry real. -/
theorem algebraic : Cert.algebraic_KernelIdeal_ReferenceIdeal := by
  intro m ρ m' ρ' hpre hagree
  refine ⟨fun c _ => ProtoLoss.resultK (Cert.KernelIdeal.Steps.queries m c) (Cert.KernelIdeal.Steps.labels m c)
    (Cert.KernelIdeal.Steps.protos m c), Cert.KernelIdeal.Steps.kernel_run m ρ, ?_⟩
  refine (θ_run Cert.ReferenceIdeal.defs _ _).mono (fun _ h c => ⟨(h c).1.trans ?_, (h c).2⟩)
    (Cert.ReferenceIdeal.AtIndex.reference_run m' ρ')
  obtain ⟨hV, hP⟩ := Cert.Proof.Finite.entries_real m hpre c
  funext i
  dsimp only
  rw [(hagree c).1, (hagree c).2.1, (hagree c).2.2]
  exact (ProtoLoss.resultK_eq_resultR _ _ _ (fun b k d => hV _) (fun cc mm d => hP _)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
